-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.named_const.Statement Cert.KernelIdeal.κ "inv_10" .f32 0x3DCCCCCD#32 ((1 / 10 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S8192x8192 : Shape := ⟨2, ![8192, 8192]⟩
abbrev S2048x1024 : Shape := ⟨2, ![2048, 1024]⟩
abbrev S1024 : Shape := ⟨1, ![1024]⟩
abbrev S8192x10 : Shape := ⟨2, ![8192, 10]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_
  bcast_S_S8192x10 : S_.BroadcastsInDim S8192x10 (![] : Fin 0 → Fin S8192x10.rank)
  reducesTo_S8192x10_S_d0_1 : S8192x10.ReducesTo [0, 1] S_

variable [Facts]

def fn_part1 {F : FTy → Type} [FloatOps F] (main_arg4 : IVec S8192x10 32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_c_6 : IVec S_ 32 := constantI S_ 32 0#32
  let main_v19 : IVec S8192x10 32 := broadcastInDim S8192x10 ![] bcast_S_S8192x10 main_c_6
  let main_v20 : IVec S8192x10 1 := cmpi .sge main_arg4 main_v19
  let main_c_7 : IVec S_ 32 := constantI S_ 32 8192#32
  let main_v21 : IVec S8192x10 32 := broadcastInDim S8192x10 ![] bcast_S_S8192x10 main_c_7
  let main_v22 : IVec S8192x10 1 := cmpi .slt main_arg4 main_v21
  let main_v23 : IVec S8192x10 1 := andi main_v20 main_v22
  let main_c_8 : IVec S_ 1 := constantI S_ 1 1#1
  let main_v24 : IVec S_ 1 := (fun x v => Host.reduce IntOp.andi x v reducesTo_S8192x10_S_d0_1 h_S_) main_v23 main_c_8
  let main_v25 : IVec S_ 1 := andi main_v18 main_v24
  main_v25

def fn {F : FTy → Type} [FloatOps F] (main_arg0 : FVec F S8192x1024 .f32) (main_arg1 : FVec F S8192x8192 .f32) (main_arg2 : FVec F S2048x1024 .f32) (main_arg3 : FVec F S1024 .f32) (main_arg4 : IVec S8192x10 32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S2048x1024 .f32 := Host.absf main_arg2
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_v13 main_v16
-- ==== Kernel.lean ====
abbrev S8192x1024 : Shape := ⟨2, ![8192, 1024]⟩
abbrev S8192x8192 : Shape := ⟨2, ![8192, 8192]⟩
abbrev S2048x1024 : Shape := ⟨2, ![2048, 1024]⟩
abbrev S1024 : Shape := ⟨1, ![1024]⟩
abbrev S8192x10 : Shape := ⟨2, ![8192, 10]⟩
abbrev S_ : Shape := ⟨0, ![]⟩
abbrev S1024x1024 : Shape := ⟨2, ![1024, 1024]⟩
abbrev S512x10 : Shape := ⟨2, ![512, 10]⟩
abbrev S512x1024 : Shape := ⟨2, ![512, 1024]⟩
abbrev S1x1024 : Shape := ⟨2, ![1, 1024]⟩
abbrev S512x1 : Shape := ⟨2, ![512, 1]⟩

abbrev nBuf : Space → Nat
  | .hbm => 19
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S8192x8192, .f32⟩
  | .hbm, ⟨2, _⟩ => ⟨S2048x1024, .f32⟩
  | .hbm, ⟨3, _⟩ => ⟨S1024, .f32⟩
  | .hbm, ⟨4, _⟩ => ⟨S8192x10, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S8192x10, .i32⟩
  | .hbm, ⟨9, _⟩ => ⟨S8192x10, .i32⟩
  | .hbm, ⟨10, _⟩ => ⟨S_, .i32⟩
  | .hbm, ⟨11, _⟩ => ⟨S8192x10, .i32⟩
  | .hbm, ⟨12, _⟩ => ⟨S8192x10, .i32⟩
  | .hbm, ⟨13, _⟩ => ⟨S8192x1024, .bf16⟩
  | .hbm, ⟨14, _⟩ => ⟨S1024x1024, .f32⟩
  | .hbm, ⟨15, _⟩ => ⟨S1024x1024, .bf16⟩
  | .hbm, ⟨16, _⟩ => ⟨S1024x1024, .f32⟩
  | .hbm, ⟨17, _⟩ => ⟨S1024x1024, .bf16⟩
  | .hbm, ⟨18, _⟩ => ⟨S8192x1024, .f32⟩
  | .local _ .vmem, ⟨0, _⟩ => ⟨S512x10, .i32⟩
  | .local _ .vmem, ⟨1, _⟩ => ⟨S512x10, .i32⟩
  | .local _ .vmem, ⟨2, _⟩ => ⟨S8192x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024, .f32⟩
  | .local _ .vmem, ⟨6, _⟩ => ⟨S512x1024, .f32⟩
  | .local _ .vmem, ⟨7, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def k0_mult1 (i : grid0.Coords) : BitVec 32 :=
  let arg0 : BitVec 32 := BitVec.ofNat 32 (i 0).val
  let c512_i32 : BitVec 32 := 512#32
  let v695 : BitVec 32 := Scalar.muli arg0 c512_i32
  v695
def k0_off1 (i : grid0.Coords) : Fin 2 → Nat :=
  let arg0 : BitVec 32 := BitVec.ofNat 32 (i 0).val
  let c512_i32 : BitVec 32 := 512#32
  let v695 : BitVec 32 := Scalar.muli arg0 c512_i32
  let v696 : BitVec 32 := v695
  let v697 : Index := Scalar.indexCast v696
  let c0_99 : Index := 0#32
  ![v697.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x10 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S8192x10 : S_.BroadcastsInDim S8192x10 (![] : Fin 0 → Fin S8192x10.rank)
  bitsLt_bf16_f32 : FTy.bits .bf16 < FTy.bits .f32
  slices_S2048x1024_S1024x1024_0_0 : S2048x1024.Slices ![0, 0] S1024x1024
  slices_S2048x1024_S1024x1024_1024_0 : S2048x1024.Slices ![1024, 0] S1024x1024
  inb_S512x10_S512x10_0_0 : ∀ a, (![0, 0] : Fin 2 → Nat) a + S512x10.size a ≤ S512x10.size a
  h_S512x10 : 0 < S512x10.numel
  shapeCasts_S512x10_S512x10 : S512x10.ShapeCasts S512x10
  iota_S1x1024_d1_w32 : S1x1024.Iotas .tc 32 [1]
  slices_S512x10_o0_0_S512x1 : S512x10.Slices ![0, 0] S512x1
  broadcasts_S512x1_S512x1024 : S512x1.Broadcasts S512x1024
  broadcasts_S1x1024_S512x1024 : S1x1024.Broadcasts S512x1024
  natLt_1_32 : 1 < 32
  slices_S512x10_o0_1_S512x1 : S512x10.Slices ![0, 1] S512x1
  slices_S512x10_o0_2_S512x1 : S512x10.Slices ![0, 2] S512x1
  slices_S512x10_o0_3_S512x1 : S512x10.Slices ![0, 3] S512x1
  slices_S512x10_o0_4_S512x1 : S512x10.Slices ![0, 4] S512x1
  slices_S512x10_o0_5_S512x1 : S512x10.Slices ![0, 5] S512x1
  slices_S512x10_o0_6_S512x1 : S512x10.Slices ![0, 6] S512x1
  slices_S512x10_o0_7_S512x1 : S512x10.Slices ![0, 7] S512x1
  slices_S512x10_o0_8_S512x1 : S512x10.Slices ![0, 8] S512x1
  slices_S512x10_o0_9_S512x1 : S512x10.Slices ![0, 9] S512x1
  inb_S8192x1024_S1024x1024_0_0 : ∀ a, (![0, 0] : Fin 2 → Nat) a + S1024x1024.size a ≤ S8192x1024.size a
  h_S1024x1024 : 0 < S1024x1024.numel
  shapeCasts_S1024x1024_S1024x1024 : S1024x1024.ShapeCasts S1024x1024
  inb_S8192x1024_S1024x1024_1024_0 : ∀ a, (![1024, 0] : Fin 2 → Nat) a + S1024x1024.size a ≤ S8192x1024.size a
  inb_S8192x1024_S1024x1024_2048_0 : ∀ a, (![2048, 0] : Fin 2 → Nat) a + S1024x1024.size a ≤ S8192x1024.size a
  inb_S8192x1024_S1024x1024_3072_0 : ∀ a, (![3072, 0] : Fin 2 → Nat) a + S1024x1024.size a ≤ S8192x1024.size a
  inb_S8192x1024_S1024x1024_4096_0 : ∀ a, (![4096, 0] : Fin 2 → Nat) a + S1024x1024.size a ≤ S8192x1024.size a
  inb_S8192x1024_S1024x1024_5120_0 : ∀ a, (![5120, 0] : Fin 2 → Nat) a + S1024x1024.size a ≤ S8192x1024.size a
  inb_S8192x1024_S1024x1024_6144_0 : ∀ a, (![6144, 0] : Fin 2 → Nat) a + S1024x1024.size a ≤ S8192x1024.size a
  inb_S8192x1024_S1024x1024_7168_0 : ∀ a, (![7168, 0] : Fin 2 → Nat) a + S1024x1024.size a ≤ S8192x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  inb_S1024_S1024_0 : ∀ a, (![0] : Fin 1 → Nat) a + S1024.size a ≤ S1024.size a
  h_S1024 : 0 < S1024.numel
  shapeCasts_S1024_S1x1024 : S1024.ShapeCasts S1x1024
  inb_S512x1024_S512x1024_0_0 : ∀ a, (![0, 0] : Fin 2 → Nat) a + S512x1024.size a ≤ S512x1024.size a
  dot_S512x1024_S1024x1024_S512x1024_1_0_0_1_n_n_wf : DotDims.WF S512x1024 S1024x1024 S512x1024 [1] [0] [0] [1] [] []
  hrank0 : 0 < grid0.rank
  k0_mult1_dvd : ∀ i : grid0.Coords, 512 ∣ (k0_mult1 i).toNat
  k0_off1_inb : ∀ i : grid0.Coords, ∀ a, (k0_off1 i) a + S512x1024.size a ≤ S8192x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x10.size a ≤ S8192x10.size a
  hwx0_0 : ∀ i : grid0.Coords, EltTy.bits .i32 = 32 ∨ (Rect.block (s := S8192x10) S512x10.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x1024.size a ≤ S8192x1024.size a
  hwx0_1 : ∀ i : grid0.Coords, EltTy.bits .bf16 = 32 ∨ (Rect.block (s := S8192x1024) S8192x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S1024.size a
  hwx0_4 : ∀ i : grid0.Coords, EltTy.bits .f32 = 32 ∨ (Rect.block (s := S1024) S1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S8192x1024.size a
  hwx0_5 : ∀ i : grid0.Coords, EltTy.bits .f32 = 32 ∨ (Rect.block (s := S8192x1024) S512x1024.size (cc0_transform_5 i) (hinb0_5 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v0) S512x10.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S8192x8192 : Shape := ⟨2, ![8192, 8192]⟩
abbrev S2048x1024 : Shape := ⟨2, ![2048, 1024]⟩
abbrev S1024 : Shape := ⟨1, ![1024]⟩
abbrev S8192x10 : Shape := ⟨2, ![8192, 10]⟩
abbrev S_ : Shape := ⟨0, ![]⟩
abbrev S8192x10x1 : Shape := ⟨3, ![8192, 10, 1]⟩
abbrev S8192x10x1024 : Shape := ⟨3, ![8192, 10, 1024]⟩
abbrev S8192x2048 : Shape := ⟨2, ![8192, 2048]⟩
abbrev S1x1024 : Shape := ⟨2, ![1, 1024]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x8192, .f32⟩
  | .hbm, ⟨2, _⟩ => ⟨S2048x1024, .f32⟩
  | .hbm, ⟨3, _⟩ => ⟨S1024, .f32⟩
  | .hbm, ⟨4, _⟩ => ⟨S8192x10, .i32⟩
  | .hbm, ⟨5, _⟩ => ⟨S_, .i32⟩
  | .hbm, ⟨6, _⟩ => ⟨S8192x10, .i32⟩
  | .hbm, ⟨7, _⟩ => ⟨S8192x10, .i1⟩
  | .hbm, ⟨8, _⟩ => ⟨S_, .i32⟩
  | .hbm, ⟨9, _⟩ => ⟨S8192x10, .i32⟩
  | .hbm, ⟨10, _⟩ => ⟨S8192x10, .i32⟩
  | .hbm, ⟨11, _⟩ => ⟨S8192x10, .i32⟩
  | .hbm, ⟨12, _⟩ => ⟨S8192x10x1, .i32⟩
  | .hbm, ⟨13, _⟩ => ⟨S8192x10x1024, .f32⟩
  | .hbm, ⟨14, _⟩ => ⟨S_, .f32⟩
  | .hbm, ⟨15, _⟩ => ⟨S8192x1024, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S8192x2048, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]

class Facts₀ : Prop where
  bcast_S_S8192x10 : S_.BroadcastsInDim S8192x10 (![] : Fin 0 → Fin S8192x10.rank)
  bcast_S8192x10_S8192x10x1_0_1 : S8192x10.BroadcastsInDim S8192x10x1 (![0, 1] : Fin 2 → Fin S8192x10x1.rank)
  reducesTo_S8192x10x1024_S8192x1024_d1 : S8192x10x1024.ReducesTo [1] S8192x1024
  h_S_ : 0 < S_.numel
  bcast_S_S8192x1024 : S_.BroadcastsInDim S8192x1024 (![] : Fin 0 → Fin S8192x1024.rank)
  concatenates_S8192x1024_S8192x1024_S8192x2048_d1 : Shape.Concatenates [S8192x1024, S8192x1024] S8192x2048 1
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  gather_S8192x1024_S8192x10x1_S8192x10x1024_2_0_n_n_0_2_11024_wf : GatherDims.WF S8192x1024 S8192x10x1 S8192x10x1024 [2] [0] [] [0] [] 2 ![1, 1024]
  dot_S8192x2048_S2048x1024_S8192x1024_1_0_0_1_n_n_wf : DotDims.WF S8192x2048 S2048x1024 S8192x1024 [1] [0] [0] [1] [] []

variable [Facts₀]

def gather_S8192x1024_S8192x10x1_S8192x10x1024_2_0_n_n_0_2_11024 : GatherDims S8192x1024 S8192x10x1 S8192x10x1024 where
  offsetDims := [2]
  collapsedSliceDims := [0]
  operandBatchingDims := []
  startIndicesBatchingDims := []
  startIndexMap := [0]
  indexVectorDim := 2
  sliceSizes := ![1, 1024]
  wf := gather_S8192x1024_S8192x10x1_S8192x10x1024_2_0_n_n_0_2_11024_wf
def dot_S8192x2048_S2048x1024_S8192x1024_1_0_0_1_n_n : DotDims S8192x2048 S2048x1024 S8192x1024 where
  lhsContracting := [1]
  rhsContracting := [0]
  lhsNonContracting := [0]
  rhsNonContracting := [1]
  lhsBatch := []
  rhsBatch := []
  wf := dot_S8192x2048_S2048x1024_S8192x1024_1_0_0_1_n_n_wf

class Facts : Prop extends Facts₀ where

variable [Facts]
-- ==== Proof.Spec.lean ====
/-
  What both programs compute, as one function of the argument arrays, index by index, on the extended reals.

  Node `i` has ten sampled neighbours, the rows `idx[i, 0..9]` of the feature table `X` (8192 rows of 1024
  features). The layer averages the neighbours' rows, sets the node's own row beside the average, and applies one
  affine map `W` (2048 × 1024) with bias `b`:

      out[i, o] = ∑ j, X[i, j] · W[j, o]  +  ∑ j, (∑ k, X[idx[i, k], j]) · (1/10) · W[1024 + j, o]  +  b[o].

  The statement is made for neighbour ids in `[0, 8192)` (`InRange`); `nbr` names the row a word stands for and is
  the word's value there.
-/
import Idealize.ShloMosaic.PureOps.Ideal
import Idealize.ShloMosaic.Lib.ValueIdx

noncomputable section

open scoped BigOperators

namespace Cert.NeighborMean

open Idealize.ShloMosaic Idealize.ShloMosaic.ValueIdx

/-- The feature table and the result: 8192 nodes by 1024 columns. -/
abbrev SFeat : Shape := ⟨2, ![8192, 1024]⟩
/-- The affine map: 2048 input columns (own features, then averaged features) by 1024 output columns. -/
abbrev SMap : Shape := ⟨2, ![2048, 1024]⟩
/-- The bias. -/
abbrev SBias : Shape := ⟨1, ![1024]⟩
/-- The sampled neighbour ids: ten per node. -/
abbrev SNbr : Shape := ⟨2, ![8192, 10]⟩

/-- Every sampled neighbour id names a row of the table. (A 32-bit word below 8192 is non-negative read signed, so
    this is `0 ≤ id < 8192`.) -/
def InRange (idx : IVec SNbr 32) : Prop := ∀ (i : Fin 8192) (k : Fin 10), (idx (ix2 i k)).toNat < 8192

/-- The row the `k`-th neighbour id of node `i` names. -/
def nbr (idx : IVec SNbr 32) (i : Fin 8192) (k : Fin 10) : Fin 8192 :=
  ⟨(idx (ix2 i k)).toNat % 8192, Nat.mod_lt _ (by decide)⟩

/-- Column `j` summed over node `i`'s ten neighbours. -/
def nbrSum (X : FVec Ideal SFeat .f32) (idx : IVec SNbr 32) (i : Fin 8192) (j : Fin 1024) : EReal :=
  ∑ k : Fin 10, X (ix2 (nbr idx i k) j)

/-- The first half of the map's rows (they meet the node's own features). -/
def ownRow (j : Fin 1024) : Fin 2048 := ⟨j.val, by have := j.isLt; omega⟩
/-- The second half of the map's rows (they meet the averaged features). -/
def aggRow (j : Fin 1024) : Fin 2048 := ⟨1024 + j.val, by have := j.isLt; omega⟩

/-- The result at node `i`, output column `o`. -/
def outAt (X : FVec Ideal SFeat .f32) (W : FVec Ideal SMap .f32) (b : FVec Ideal SBias .f32) (idx : IVec SNbr 32)
    (i : Fin 8192) (o : Fin 1024) : EReal :=
  ((∑ j : Fin 1024, X (ix2 i j) * W (ix2 (ownRow j) o))
    + (∑ j : Fin 1024, (nbrSum X idx i j * ((1 / 10 : ℝ) : EReal)) * W (ix2 (aggRow j) o)))
  + b (ix1 o)

/-- The whole result array. -/
def out (X : FVec Ideal SFeat .f32) (W : FVec Ideal SMap .f32) (b : FVec Ideal SBias .f32) (idx : IVec SNbr 32) :
    FVec Ideal SFeat .f32 :=
  fun y => outAt X W b idx (y 0) (y 1)

theorem out_apply (X : FVec Ideal SFeat .f32) (W : FVec Ideal SMap .f32) (b : FVec Ideal SBias .f32) (idx : IVec SNbr 32)
    (i : Fin 8192) (o : Fin 1024) : out X W b idx (ix2 i o) = outAt X W b idx i o := rfl

/-- In range, the row a neighbour id names is the id's value. -/
theorem nbr_val (idx : IVec SNbr 32) (h : InRange idx) (i : Fin 8192) (k : Fin 10) :
    (nbr idx i k).val = (idx (ix2 i k)).toNat :=
  Nat.mod_eq_of_lt (h i k)

end Cert.NeighborMean

end
-- ==== Proof.PreRange.lean ====
/-
  What the precondition says about the sampled neighbour ids: each is a row number of the table, `0 ≤ id < 8192`.
-/
import proofs.«406600_j37787122270589_3_alg».proof.Pre_finite_inputs
import proofs.«406600_j37787122270589_3_alg».proof.Proof.Gen.Pre_finite_inputs
import proofs.«406600_j37787122270589_3_alg».proof.Proof.Spec
import Idealize.ShloMosaic.Lib.ReduceAll
import Idealize.ShloMosaic.Lib.StableHlo.Predicate

noncomputable section

namespace Cert.NeighborMean

open Idealize.ShloMosaic Idealize.ShloMosaic.ValueIdx

/-- A 32-bit word that tests `0 ≤ w` and `w < 8192` read SIGNED is below 8192 read unsigned. Read signed, a word
    is its unsigned value when the top bit is clear and that value minus `2 ^ 32` when it is set. With the top bit
    set the signed value is negative, against `0 ≤ w`; with it clear the two readings agree and `w < 8192` is the
    claim. (Nothing is assumed about the word beforehand: that it lies below `2 ^ 31` is part of what is shown.) -/
private theorem toNat_lt_of_signed_range {w : BitVec 32} (h0 : IntOp.cmpi .sge w 0#32 = 1#1)
    (h1 : IntOp.cmpi .slt w 8192#32 = 1#1) : w.toNat < 8192 := by
  rw [IntOp.cmpi_sge, show (0#32 : BitVec 32).toInt = 0 from by decide] at h0
  rw [IntOp.cmpi_slt, show (8192#32 : BitVec 32).toInt = 8192 from by decide] at h1
  have hlt := w.isLt
  rw [BitVec.toInt_eq_toNat_cond] at h0 h1
  by_cases hc : 2 * w.toNat < 2 ^ 32
  · rw [if_pos hc] at h1; omega
  · rw [if_neg hc] at h0; omega

/-- If the printed precondition is all ones on the argument arrays, every neighbour id is below 8192 as a word
    (so non-negative read signed, and a row number). -/
theorem inRange_of_pre (a0 : FVec Ideal Cert.Pre_finite_inputs.S8192x1024 .f32)
    (a1 : FVec Ideal Cert.Pre_finite_inputs.S8192x8192 .f32) (a2 : FVec Ideal Cert.Pre_finite_inputs.S2048x1024 .f32)
    (a3 : FVec Ideal Cert.Pre_finite_inputs.S1024 .f32) (a4 : IVec Cert.Pre_finite_inputs.S8192x10 32)
    (h : Cert.Pre_finite_inputs.fn (F := Ideal) a0 a1 a2 a3 a4 = fun _ => 1#1) : InRange a4 := by
  intro i k
  -- The scalar shape has exactly one index: an index is a function out of the empty set of axes.
  haveI : Subsingleton Cert.Pre_finite_inputs.S_.Idx := ⟨fun a b => funext fun d => d.elim0⟩
  -- The precondition's one word, written out: the `and` of the four finiteness conjuncts with the range conjunct.
  have h1 := congrFun h ValueIdx.ix0
  unfold Cert.Pre_finite_inputs.fn Cert.Pre_finite_inputs.fn_part1 at h1
  dsimp only at h1
  -- An `and` of bits is 1 only if both are: keep the last conjunct, the `and` over all 8192 × 10 positions of
  -- `(0 ≤ id) and (id < 8192)`.
  have h2 := (IntOp.andi_eq_one.1 h1).2
  -- A reduction by `and` from 1 that came out 1 met a 1 at every position, in particular at `(i, k)`.
  have h3 := Host.reduce_andi_all _ _ _ _ _ h2 (ix2 i k)
  -- There the bit is again an `and`, of the two comparisons.
  obtain ⟨h4, h5⟩ := IntOp.andi_eq_one.1 h3
  -- Each comparison is against a scalar spread over the array, which read at any position is the scalar itself.
  have h4' : IntOp.cmpi .sge (a4 (ix2 i k)) 0#32 = 1#1 := h4
  have h5' : IntOp.cmpi .slt (a4 (ix2 i k)) 8192#32 = 1#1 := h5
  exact toNat_lt_of_signed_range h4' h5'

end Cert.NeighborMean

end
-- ==== Proof.LibRowTake3.lean ====
/-
  A ROW TAKE PER POSITION read at an index.

  `table[idx]` for a rank-2 table `[N, D]` and an `[n, m]` array of row numbers lowers to a `stablehlo.gather` whose
  start indices are the `[n, m, 1]` array of row numbers: the table's row axis is collapsed and start-indexed, its
  column axis is the result's one offset axis (axis 2), a slice is one whole row (`slice_sizes = [1, D]`), and the
  index vector lies on axis 2 of the start indices. Result element `(r, p, c)` is then the table at row
  `idx[r, p, 0]`, read as a signed integer and clamped into `[0, N − 1]` (a negative row number reads row 0, one
  past the end the last row), and column `c`. `winTakeDims` are those dimension numbers at any extents (a printed
  record with the same numbers is it by `rfl`) and `gather_winTake_apply` is the read.
-/
import Idealize.ShloMosaic.Lib.ValueIdx

namespace Cert.LibRowTake3

open Idealize.ShloMosaic Idealize.ShloMosaic.ValueIdx

/-- The dimension numbers of a row take with start indices `[n, m, 1]`: table `[N, D]`, result `[n, m, D]`. -/
abbrev winTakeDims (N D n m : Nat)
    (wf : GatherDims.WF ⟨2, ![N, D]⟩ ⟨3, ![n, m, 1]⟩ ⟨3, ![n, m, D]⟩ [2] [0] [] [0] [] 2 ![1, D]) :
    GatherDims ⟨2, ![N, D]⟩ ⟨3, ![n, m, 1]⟩ ⟨3, ![n, m, D]⟩ where
  offsetDims := [2]
  collapsedSliceDims := [0]
  operandBatchingDims := []
  startIndicesBatchingDims := []
  startIndexMap := [0]
  indexVectorDim := 2
  sliceSizes := ![1, D]
  wf := wf

/-- The table's row axis is start-indexed and collapsed: its coordinate is the clamped start index alone. -/
theorem winTake_coord0 {N D n m w : Nat}
    (wf : GatherDims.WF ⟨2, ![N, D]⟩ ⟨3, ![n, m, 1]⟩ ⟨3, ![n, m, D]⟩ [2] [0] [] [0] [] 2 ![1, D])
    (idx : IVec ⟨3, ![n, m, 1]⟩ w) (r : Fin n) (p : Fin m) (c : Fin D) :
    ((winTakeDims N D n m wf).operandIdx (ix3 r p c) idx 0).val
      = min (idx (ix3 r p (0 : Fin 1))).toInt.toNat (N - 1) := by
  show (winTakeDims N D n m wf).start (ix3 r p c) idx 0 + (winTakeDims N D n m wf).batchCoord (ix3 r p c) 0
      + (winTakeDims N D n m wf).offCoord (ix3 r p c) 0 = _
  have hk : (0 : Fin 2) ∉ (winTakeDims N D n m wf).sKept := fun hm =>
    ((GatherDims.mem_sKept _ _).1 hm).1 (List.mem_singleton.2 rfl)
  rw [GatherDims.batchCoord_eq_zero _ _ _ List.not_mem_nil, GatherDims.offCoord_eq_zero _ _ _ hk]
  simp only [Nat.add_zero]
  have hm : (0 : Fin 2) ∈ (winTakeDims N D n m wf).startIndexMap := List.mem_singleton.2 rfl
  unfold GatherDims.start
  rw [dif_pos hm]
  have hsi : (winTakeDims N D n m wf).siIdx (ix3 r p c) ⟨List.idxOf (0 : Fin 2) (winTakeDims N D n m wf).startIndexMap,
      List.idxOf_lt_length_iff.2 hm⟩ = ix3 r p (0 : Fin 1) := by
    funext b
    refine Fin.ext ?_
    match b with
    | ⟨0, _⟩ => rfl
    | ⟨1, _⟩ => rfl
    | ⟨2, _⟩ => rfl
  rw [hsi]
  rfl

/-- The table's column axis is the slice's one kept axis: its coordinate is the result's offset coordinate. -/
theorem winTake_coord1 {N D n m w : Nat}
    (wf : GatherDims.WF ⟨2, ![N, D]⟩ ⟨3, ![n, m, 1]⟩ ⟨3, ![n, m, D]⟩ [2] [0] [] [0] [] 2 ![1, D])
    (idx : IVec ⟨3, ![n, m, 1]⟩ w) (r : Fin n) (p : Fin m) (c : Fin D) :
    ((winTakeDims N D n m wf).operandIdx (ix3 r p c) idx 1).val = c.val := by
  show (winTakeDims N D n m wf).start (ix3 r p c) idx 1 + (winTakeDims N D n m wf).batchCoord (ix3 r p c) 1
      + (winTakeDims N D n m wf).offCoord (ix3 r p c) 1 = _
  have h10 : ¬ (1 : Fin 2) = 0 := fun e => absurd (congrArg Fin.val e) Nat.one_ne_zero
  have hm : (1 : Fin 2) ∉ (winTakeDims N D n m wf).startIndexMap := fun hm => h10 (List.mem_singleton.1 hm)
  have hs : (winTakeDims N D n m wf).start (ix3 r p c) idx 1 = 0 := by
    unfold GatherDims.start
    rw [dif_neg hm]
  rw [hs, GatherDims.batchCoord_eq_zero _ _ _ List.not_mem_nil]
  simp only [Nat.zero_add]
  have hk : (1 : Fin 2) ∈ (winTakeDims N D n m wf).sKept :=
    (GatherDims.mem_sKept _ _).2 ⟨fun h => h10 (List.mem_singleton.1 h), List.not_mem_nil⟩
  unfold GatherDims.offCoord
  rw [dif_pos hk]
  rfl

/-- The row take read at `(r, p, c)`: the table at the row the start index `idx[r, p, 0]` names, read signed and
    clamped into `[0, N − 1]`, and column `c`. -/
theorem gather_winTake_apply {α : Type} {N D n m w : Nat} (hN : 0 < N)
    (wf : GatherDims.WF ⟨2, ![N, D]⟩ ⟨3, ![n, m, 1]⟩ ⟨3, ![n, m, D]⟩ [2] [0] [] [0] [] 2 ![1, D])
    (x : (⟨2, ![N, D]⟩ : Shape).Idx → α) (idx : IVec ⟨3, ![n, m, 1]⟩ w) (r : Fin n) (p : Fin m) (c : Fin D) :
    Host.gather (winTakeDims N D n m wf) x idx (ix3 r p c)
      = x (ix2 ⟨min (idx (ix3 r p (0 : Fin 1))).toInt.toNat (N - 1), by omega⟩ c) := by
  show x ((winTakeDims N D n m wf).operandIdx (ix3 r p c) idx) = _
  congr 1
  funext a
  refine Fin.ext ?_
  match a with
  | ⟨0, _⟩ => exact winTake_coord0 wf idx r p c
  | ⟨1, _⟩ => exact winTake_coord1 wf idx r p c

end Cert.LibRowTake3
-- ==== Proof.RefValue.lean ====
/-
  The reference's result is the specification: gather the ten neighbour rows, sum them, divide by ten, set the node's
  own row in front, one matrix product with the map, add the bias.
-/
import proofs.«406600_j37787122270589_3_alg».proof.Proof.Gen.ReferenceIdeal.Read
import proofs.«406600_j37787122270589_3_alg».proof.Proof.Spec
import proofs.«406600_j37787122270589_3_alg».proof.Proof.LibRowTake3
import Idealize.ShloMosaic.Lib.StableHlo.Predicate

noncomputable section

open scoped BigOperators

namespace Cert.NeighborMean

open Idealize.ShloMosaic Idealize.ShloMosaic.ValueIdx
open Cert.ReferenceIdeal Cert.ReferenceIdeal.Read

/-! ## The neighbour ids as the gather sees them -/

/-- An id in range is non-negative read signed, so the reference's wrap-around of negative ids leaves it alone. -/
theorem wrapped_id (x4 : IVec S8192x10 32) (h : InRange x4) (i : Fin 8192) (k : Fin 10) :
    val_main_v4 (F := Ideal) x4 (ix2 i k) = x4 (ix2 i k) := by
  rw [val_main_v4_apply, val_main_v1_apply, val_main_v0_apply, val_main_c_apply]
  have hlt : (x4 (ix2 i k)).toNat < 2 ^ 31 := lt_trans (h i k) (by norm_num)
  have hne : ¬ IntOp.cmpi .slt (x4 (ix2 i k)) 0#32 = 1#1 := by
    rw [StableHlo.Predicate.slt_iff_toNat hlt (by decide)]
    exact Nat.not_lt_zero _
  exact if_neg hne

/-- The row the gather reads for neighbour `k` of node `i`: the id's own value, which the clamp into the table
    leaves alone. -/
theorem gathered_row (x4 : IVec S8192x10 32) (h : InRange x4) (i : Fin 8192) (k : Fin 10) :
    min (val_main_v5 (F := Ideal) x4 (ix3 i k (0 : Fin 1))).toInt.toNat (8192 - 1) = (nbr x4 i k).val := by
  have e : idx_main_v5 (ix3 i k (0 : Fin 1)) = ix2 i k := by
    funext a; match a with | ⟨0, _⟩ => rfl | ⟨1, _⟩ => rfl
  have hlt : (x4 (ix2 i k)).toNat < 2 ^ 31 := lt_trans (h i k) (by norm_num)
  rw [val_main_v5_apply, e, wrapped_id x4 h, StableHlo.Predicate.toInt_eq_toNat_of_lt hlt, Int.toNat_natCast,
    nbr_val x4 h]
  exact min_eq_left (by have := h i k; omega)

/-- The gather at `(i, k, j)` is the table at neighbour `k`'s row, column `j`. -/
theorem gather_read (x0 : FVec Ideal S8192x1024 .f32) (x4 : IVec S8192x10 32) (h : InRange x4)
    (i : Fin 8192) (k : Fin 10) (j : Fin 1024) :
    val_main_v6 (F := Ideal) x0 x4 (ix3 i k j) = x0 (ix2 (nbr x4 i k) j) := by
  unfold val_main_v6
  refine (Cert.LibRowTake3.gather_winTake_apply (N := 8192) (D := 1024) (n := 8192) (m := 10) (by decide)
    Facts₀.gather_S8192x1024_S8192x10x1_S8192x10x1024_2_0_n_n_0_2_11024_wf x0 (val_main_v5 (F := Ideal) x4) i k j).trans ?_
  exact congrArg (fun r => x0 (ix2 r j)) (Fin.ext (gathered_row x4 h i k))

/-! ## The neighbour mean -/

/-- The host sum over the ten gathered rows is the neighbour sum. -/
theorem sum_read (x0 : FVec Ideal S8192x1024 .f32) (x4 : IVec S8192x10 32) (h : InRange x4)
    (i : Fin 8192) (j : Fin 1024) :
    val_main_v7 (F := Ideal) x0 x4 (ix2 i j) = nbrSum x0 x4 i j := by
  rw [val_main_v7_apply, val_main_cst_apply, Ideal.ofBits_def, Ideal.ofBits_zero_f32, zero_add]
  unfold nbrSum
  refine Finset.sum_congr rfl fun k _ => ?_
  have e : idx_main_v7 (ix2 i j) k = ix3 i k j := by
    funext a; match a with | ⟨0, _⟩ => rfl | ⟨1, _⟩ => rfl | ⟨2, _⟩ => rfl
  rw [e, gather_read x0 x4 h]

/-- The divisor's pattern: sign clear, exponent field 130, fraction field 2²¹, that is (2²³ + 2²¹) · 2⁻²⁰ = 10. -/
theorem ofBits_ten : Ideal.ofBits .f32 0x41200000#32 = ((10 : ℝ) : EReal) := by
  simp [Ideal.ofBits, Ideal.ieee]
  rw [← EReal.coe_mul]
  norm_num

/-- Dividing by ten is multiplying by a tenth, on every extended real. -/
theorem mean_read (x0 : FVec Ideal S8192x1024 .f32) (x4 : IVec S8192x10 32) (h : InRange x4)
    (i : Fin 8192) (j : Fin 1024) :
    val_main_v9 (F := Ideal) x0 x4 (ix2 i j) = nbrSum x0 x4 i j * ((1 / 10 : ℝ) : EReal) := by
  rw [val_main_v9_apply, val_main_v8_apply, val_main_cst_1_apply, Ideal.hostDivf_def, Ideal.ofBits_def, ofBits_ten,
    Ideal.div_coe (by norm_num : (10 : ℝ) ≠ 0), sum_read x0 x4 h]

/-! ## The joined row -/

/-- Left of column 1024 the joined row is the node's own row. -/
theorem cat_left (x0 : FVec Ideal S8192x1024 .f32) (x4 : IVec S8192x10 32) (i : Fin 8192) (j : Fin 1024) :
    val_main_v10 (F := Ideal) x0 x4 (ix2 i (ownRow j)) = x0 (ix2 i j) := by
  unfold val_main_v10
  refine concatenate_pair_apply_left (t := S8192x2048) (s₁ := S8192x1024) (s₂ := S8192x1024) (1 : Fin 2) x0
    (val_main_v9 (F := Ideal) x0 x4) _ (ix2 i (ownRow j)) rfl (ix2 i j) ?_
  intro b
  match b with
  | ⟨0, _⟩ => rfl
  | ⟨1, _⟩ => rfl

/-- From column 1024 on the joined row is the neighbour mean. -/
theorem cat_right (x0 : FVec Ideal S8192x1024 .f32) (x4 : IVec S8192x10 32) (i : Fin 8192) (j : Fin 1024) :
    val_main_v10 (F := Ideal) x0 x4 (ix2 i (aggRow j)) = val_main_v9 (F := Ideal) x0 x4 (ix2 i j) := by
  unfold val_main_v10
  refine concatenate_pair_apply_right (t := S8192x2048) (s₁ := S8192x1024) (s₂ := S8192x1024) (1 : Fin 2) x0
    (val_main_v9 (F := Ideal) x0 x4) _ (ix2 i (aggRow j)) rfl rfl (ix2 i j) ?_ ?_
  · intro b hb
    match b, hb with
    | ⟨0, _⟩, _ => rfl
    | ⟨1, _⟩, hb => exact absurd rfl hb
  · show j.val + 1024 = 1024 + j.val
    omega

/-! ## The product with the map -/

/-- A sum over 2048 columns is the sum over the first 1024 plus the sum over the last 1024. -/
theorem sum_halves (f : Fin 2048 → EReal) :
    ∑ k : Fin 2048, f k = (∑ j : Fin 1024, f (ownRow j)) + ∑ j : Fin 1024, f (aggRow j) :=
  Fin.sum_univ_add (a := 1024) (b := 1024) f

/-- The product's element: the own-feature half plus the neighbour-mean half. -/
theorem dot_read (x0 : FVec Ideal S8192x1024 .f32) (x2 : FVec Ideal S2048x1024 .f32) (x4 : IVec S8192x10 32)
    (h : InRange x4) (i : Fin 8192) (o : Fin 1024) :
    val_main_v11 (F := Ideal) x0 x2 x4 (ix2 i o)
      = (∑ j : Fin 1024, x0 (ix2 i j) * x2 (ix2 (ownRow j) o))
        + ∑ j : Fin 1024, (nbrSum x0 x4 i j * ((1 / 10 : ℝ) : EReal)) * x2 (ix2 (aggRow j) o) := by
  have el : ∀ k : Fin 2048, lidx_main_v11 (ix2 i o) k = ix2 i k := fun k => by
    funext a; match a with | ⟨0, _⟩ => rfl | ⟨1, _⟩ => rfl
  have er : ∀ k : Fin 2048, ridx_main_v11 (ix2 i o) k = ix2 k o := fun k => by
    funext a; match a with | ⟨0, _⟩ => rfl | ⟨1, _⟩ => rfl
  rw [val_main_v11_apply, sum_halves]
  refine congrArg₂ (· + ·) (Finset.sum_congr rfl fun j _ => ?_) (Finset.sum_congr rfl fun j _ => ?_)
  · rw [el, er, cat_left]
  · rw [el, er, cat_right, mean_read x0 x4 h]

/-! ## The bias -/

/-- The bias, broadcast to a row and then to every node, read at `(i, o)`. -/
theorem bias_read (x3 : FVec Ideal S1024 .f32) (i : Fin 8192) (o : Fin 1024) :
    val_main_v13 (F := Ideal) x3 (ix2 i o) = x3 (ix1 o) := by
  rw [val_main_v13_apply, val_main_v12_apply]
  refine congrArg x3 (funext fun a => ?_)
  match a with
  | ⟨0, _⟩ => rfl

/-- For neighbour ids in range, the reference's last stage is `out` of the arguments. -/
theorem reference_is_out (x0 : FVec Ideal Cert.ReferenceIdeal.S8192x1024 .f32) (x2 : FVec Ideal Cert.ReferenceIdeal.S2048x1024 .f32)
    (x3 : FVec Ideal Cert.ReferenceIdeal.S1024 .f32) (x4 : IVec Cert.ReferenceIdeal.S8192x10 32) (h : InRange x4) :
    Cert.ReferenceIdeal.Read.val_main_v14 (F := Ideal) x0 x2 x3 x4 = out x0 x2 x3 x4 := by
  funext y
  obtain ⟨i, o, rfl⟩ : ∃ (i : Fin 8192) (o : Fin 1024), y = ix2 i o := ⟨y 0, y 1, eq_ix2 y⟩
  rw [out_apply]
  unfold outAt
  rw [val_main_v14_apply, Ideal.addf_def, dot_read x0 x2 x4 h, bias_read]

end Cert.NeighborMean

end
-- ==== Proof.KernelBody.lean ====
/-
  What one grid point of the kernel leaves in its output tile, as a composition of named steps.

  A tile is 512 nodes. The body loads the tile's neighbour ids `ids` (512 × 10), and for each of the eight chunks of
  1024 table rows builds the 512 × 1024 matrix of counts (how many of a node's ten ids name each row of the chunk),
  multiplies it with the chunk, and adds the product to a running 512 × 1024 accumulator that starts at zero:
  `acc0 … acc6`, and the eighth step inside `tile`. `tile` then scales the accumulator by the named tenth,
  multiplies the tile's own rows with the first half of the map and the scaled accumulator with the second half,
  adds the two products and the bias. Every step is one of the body's printed pure terms applied to the loads; the
  run of the body stores exactly `tile` (`stored_eq_tile`).
-/
import proofs.«406600_j37787122270589_3_alg».proof.Proof.Gen.KernelIdeal.Frame
import Idealize.ShloMosaic.Lib.Pipeline.Value
import Idealize.ShloMosaic.Lib.Tactic

set_option maxRecDepth 16384

noncomputable section

namespace Cert.KernelIdeal.Tile

open Cert.KernelIdeal Cert.KernelIdeal.Gen Idealize.ShloMosaic Idealize.ShloMosaic.TcCoe Idealize.SL.Sem

variable {F : FTy → Type} [FloatOps F] [Named F]

theorem zero2 : (![0, 0] : Fin 2 → Nat) = fun _ => 0 := funext fun a => by fin_cases a <;> rfl
theorem zero1 : (![0] : Fin 1 → Nat) = fun _ => 0 := funext fun a => by fin_cases a; rfl

/-- The tile's neighbour ids as the body reads them. -/
abbrev ids (x0 : Vec F S512x10 .i32) : IVec S512x10 32 := k0_pay1 x0
/-- The column numbers 0 … 1023 of a chunk. -/
abbrev lane : IVec S1x1024 32 := iota .tc S1x1024 32 [1] iota_S1x1024_d1_w32

/-- The eight chunks of the table: rows 1024·c … 1024·c + 1023. -/
abbrev rows0 (x1 : Vec F S8192x1024 .bf16) : Vec F S1024x1024 .bf16 := View.ld x1 (Rect.unit ![0, 0] S1024x1024.size inb_S8192x1024_S1024x1024_0_0)
abbrev rows1 (x1 : Vec F S8192x1024 .bf16) : Vec F S1024x1024 .bf16 := View.ld x1 (Rect.unit ![1024, 0] S1024x1024.size inb_S8192x1024_S1024x1024_1024_0)
abbrev rows2 (x1 : Vec F S8192x1024 .bf16) : Vec F S1024x1024 .bf16 := View.ld x1 (Rect.unit ![2048, 0] S1024x1024.size inb_S8192x1024_S1024x1024_2048_0)
abbrev rows3 (x1 : Vec F S8192x1024 .bf16) : Vec F S1024x1024 .bf16 := View.ld x1 (Rect.unit ![3072, 0] S1024x1024.size inb_S8192x1024_S1024x1024_3072_0)
abbrev rows4 (x1 : Vec F S8192x1024 .bf16) : Vec F S1024x1024 .bf16 := View.ld x1 (Rect.unit ![4096, 0] S1024x1024.size inb_S8192x1024_S1024x1024_4096_0)
abbrev rows5 (x1 : Vec F S8192x1024 .bf16) : Vec F S1024x1024 .bf16 := View.ld x1 (Rect.unit ![5120, 0] S1024x1024.size inb_S8192x1024_S1024x1024_5120_0)
abbrev rows6 (x1 : Vec F S8192x1024 .bf16) : Vec F S1024x1024 .bf16 := View.ld x1 (Rect.unit ![6144, 0] S1024x1024.size inb_S8192x1024_S1024x1024_6144_0)
abbrev rows7 (x1 : Vec F S8192x1024 .bf16) : Vec F S1024x1024 .bf16 := View.ld x1 (Rect.unit ![7168, 0] S1024x1024.size inb_S8192x1024_S1024x1024_7168_0)
/-- The tile's own 512 rows of the table. -/
abbrev ownRows (i : grid0.Coords) (x1 : Vec F S8192x1024 .bf16) : Vec F S512x1024 .bf16 :=
  View.ld x1 (Rect.unit (k0_off1 i) S512x1024.size (k0_off1_inb i))

/-- The accumulator after chunk 0, 1, …, 6. -/
def acc0 (x0 : Vec F S512x10 .i32) (x1 : Vec F S8192x1024 .bf16) : FVec F S512x1024 .f32 :=
  k0_pay5 (ids x0) lane k0_pay2 (k0_pay3 x0) (k0_pay4 x0) (rows0 x1)
def acc1 (x0 : Vec F S512x10 .i32) (x1 : Vec F S8192x1024 .bf16) : FVec F S512x1024 .f32 :=
  k0_pay10 (ids x0) lane (acc0 x0 x1) (k0_pay8 (ids x0) lane (k0_pay6 (ids x0) lane) (k0_pay7 (ids x0))) (k0_pay9 (ids x0) lane) (rows1 x1)
def acc2 (x0 : Vec F S512x10 .i32) (x1 : Vec F S8192x1024 .bf16) : FVec F S512x1024 .f32 :=
  k0_pay15 (acc1 x0 x1) (k0_pay14 (ids x0) lane (k0_pay11 (ids x0) lane) (k0_pay12 (ids x0)) k0_pay13) (rows2 x1)
def acc3 (x0 : Vec F S512x10 .i32) (x1 : Vec F S8192x1024 .bf16) : FVec F S512x1024 .f32 :=
  k0_pay18 (ids x0) lane (acc2 x0 x1) (k0_pay16 (ids x0) lane) (k0_pay17 (ids x0)) (rows3 x1)
def acc4 (x0 : Vec F S512x10 .i32) (x1 : Vec F S8192x1024 .bf16) : FVec F S512x1024 .f32 :=
  k0_pay23 (ids x0) lane (acc3 x0 x1) (k0_pay21 (ids x0) lane (k0_pay19 (ids x0) lane) (k0_pay20 (ids x0))) (k0_pay22 (ids x0) lane) (rows4 x1)
def acc5 (x0 : Vec F S512x10 .i32) (x1 : Vec F S8192x1024 .bf16) : FVec F S512x1024 .f32 :=
  k0_pay28 (acc4 x0 x1) (k0_pay27 (ids x0) lane (k0_pay24 (ids x0) lane) (k0_pay25 (ids x0)) k0_pay26) (rows5 x1)
def acc6 (x0 : Vec F S512x10 .i32) (x1 : Vec F S8192x1024 .bf16) : FVec F S512x1024 .f32 :=
  k0_pay31 (ids x0) lane (acc5 x0 x1) (k0_pay29 (ids x0) lane) (k0_pay30 (ids x0)) (rows6 x1)

/-- What the body stores: the eighth chunk added on, the mean, the two products with the halves of the map, the bias. -/
def tile (i : grid0.Coords) (x0 : Vec F S512x10 .i32) (x1 : Vec F S8192x1024 .bf16) (x2 x3 : Vec F S1024x1024 .bf16)
    (x4 : Vec F S1024 .f32) : FVec F S512x1024 .f32 :=
  k0_pay36 (ids x0) lane (acc6 x0 x1) (k0_pay34 (ids x0) lane (k0_pay32 (ids x0) lane) (k0_pay33 (ids x0))) (k0_pay35 (ids x0) lane)
    (rows7 x1) (ownRows i x1) x2 x3 x4

/-- The run of the body leaves `tile` in the output's staging buffer: its one store covers the buffer, and each load
    reads the buffer it names through its rectangle. -/
theorem stored_eq_tile (c : Dev nD) (i : grid0.Coords) (arg1 : Memref sig .tc .vmem S512x10 .i32) (harg1 : arg1.IsWhole) (arg2 : Memref sig .tc .vmem S8192x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S512x1024 .f32) (harg6 : arg6.IsWhole)
    (x0 : Vec F S512x10 .i32) (x1 : Vec F S8192x1024 .bf16) (x2 : Vec F S1024x1024 .bf16) (x3 : Vec F S1024x1024 .bf16) (x4 : Vec F S1024 .f32) :
    out0_A_5 c i arg1 harg1 arg2 harg2 arg3 harg3 arg4 harg4 arg5 harg5 arg6 harg6 x0 x1 x2 x3 x4 = tile i x0 x1 x2 x3 x4 := by
  unfold out0_A_5
  rw [View.read_writes_eq_canon _ _ _ (cover0_A_5 c i arg1 harg1 arg2 harg2 arg3 harg3 arg4 harg4 arg5 harg5 arg6 harg6 x0 x1 x2 x3 x4)]
  unfold kernelRun0_A
  dsimp only
  sl_unfold_words
  rw [View.canon_unit_zero zero2]
  simp only [View.readAt_eq_ld, harg1.read_unread, harg2.read_unread, harg3.read_unread, harg4.read_unread, harg5.read_unread,
    View.ld_unit_zero (S := S512x10) zero2, View.ld_unit_zero (S := S1024x1024) zero2, View.ld_unit_zero (S := S1024) zero1]
  rfl

end Cert.KernelIdeal.Tile

end
-- ==== Proof.LibOneHotCount.lean ====
/-
  GATHER-AND-SUM AS A MATRIX PRODUCT WITH A MATRIX OF COUNTS, chunk by chunk.

  Ten 32-bit words `v 0 … v 9` name rows of a table of 8192 rows, taken in 8 chunks of 1024 rows. For chunk `c` and
  column `n` of the chunk, a word COUNTS how many of the ten name row `1024·c + n`: ten steps, each comparing
  `v k − 1024·c` with `n` as words, widening the one-bit answer to 32 bits and adding it on (`cntWord`). The count
  never exceeds ten, so the additions do not wrap and the word read signed is the count. Multiplying each row
  `x (1024·c + n)` of the chunk by its count and summing over the chunk (`chunkDot`) collects `x (v k)` once for
  every `k` whose word lies in the chunk; the eight chunks, added up from zero one after the other, collect every
  `x (v k)` exactly once, because a word below 8192 lies in exactly one chunk (`acc_chain`).

  Nothing here needs the table's entries to be finite: a count times an extended real is the entry added to itself
  that many times (`EReal.nsmul_eq_mul`), and sums in a commutative monoid regroup freely.
-/
import Mathlib.Data.EReal.Operations
import Mathlib.Algebra.BigOperators.Fin
import Mathlib.Algebra.Module.BigOperators
import Idealize.ShloMosaic.PureOps.Float

noncomputable section

open scoped BigOperators

namespace Cert.LibOneHotCount

open Idealize.ShloMosaic

/-- One compare-widen step: 1 if the word `w`, moved down by the chunk's base `B`, is the column `n`, else 0. -/
def hit (w B n : BitVec 32) : BitVec 32 := (IntOp.cmpi .eq (w - B) n).setWidth 32

/-- The ten compare-widen-add steps of one chunk at one column, from zero, in order. -/
def cntWord (v : Fin 10 → BitVec 32) (B n : BitVec 32) : BitVec 32 :=
  ((((((((((0#32 + hit (v 0) B n) + hit (v 1) B n) + hit (v 2) B n) + hit (v 3) B n) + hit (v 4) B n)
    + hit (v 5) B n) + hit (v 6) B n) + hit (v 7) B n) + hit (v 8) B n) + hit (v 9) B n)

/-- Chunk `c` of the table, each row times its count, summed over the chunk's 1024 rows. -/
def chunkDot (v : Fin 10 → BitVec 32) (x : Fin 8192 → EReal) (c : Fin 8) : EReal :=
  ∑ n : Fin 1024, (((cntWord v (BitVec.ofNat 32 (1024 * c.val)) (BitVec.ofNat 32 n.val)).toInt : ℝ) : EReal)
    * x ⟨1024 * c.val + n.val, by have := c.isLt; have := n.isLt; omega⟩

/-- A sum over ten indices written out, left-nested. -/
theorem sum_univ_ten {M : Type*} [AddCommMonoid M] (f : Fin 10 → M) :
    ∑ i, f i = f 0 + f 1 + f 2 + f 3 + f 4 + f 5 + f 6 + f 7 + f 8 + f 9 := by
  rw [Fin.sum_univ_castSucc, Fin.sum_univ_castSucc, Fin.sum_univ_eight]
  rfl

/-- Moving a word down by a base below it and landing on a column: no wrap-around, so this is the statement about
    values. Both the base and the column are far below the modulus of 32-bit words. -/
theorem sub_base_eq_iff (w : BitVec 32) (c : Fin 8) (n : Fin 1024) :
    w - BitVec.ofNat 32 (1024 * c.val) = BitVec.ofNat 32 n.val ↔ w.toNat = 1024 * c.val + n.val := by
  have hc := c.isLt
  have hn := n.isLt
  have hw := w.isLt
  rw [← BitVec.toNat_inj, BitVec.toNat_sub, BitVec.toNat_ofNat, BitVec.toNat_ofNat]
  omega

/-- A step hits exactly when the word's value is the chunk's base plus the column. -/
theorem hit_toNat (w : BitVec 32) (c : Fin 8) (n : Fin 1024) :
    (hit w (BitVec.ofNat 32 (1024 * c.val)) (BitVec.ofNat 32 n.val)).toNat
      = if w.toNat = 1024 * c.val + n.val then 1 else 0 := by
  unfold hit IntOp.cmpi
  by_cases h : w.toNat = 1024 * c.val + n.val
  · have he : w - BitVec.ofNat 32 (1024 * c.val) = BitVec.ofNat 32 n.val := (sub_base_eq_iff w c n).2 h
    simp [he, h]
  · have he : (w - BitVec.ofNat 32 (1024 * c.val) == BitVec.ofNat 32 n.val) = false :=
      beq_eq_false_iff_ne.2 fun e => h ((sub_base_eq_iff w c n).1 e)
    simp [he, h]

/-- The ten additions never wrap: each step adds 0 or 1, so every partial sum is at most ten. The word's value is
    therefore the number of hits. -/
theorem cntWord_toNat (v : Fin 10 → BitVec 32) (c : Fin 8) (n : Fin 1024) :
    (cntWord v (BitVec.ofNat 32 (1024 * c.val)) (BitVec.ofNat 32 n.val)).toNat
      = (Finset.univ.filter fun k : Fin 10 => (v k).toNat = 1024 * c.val + n.val).card := by
  have h : ∀ k, (hit (v k) (BitVec.ofNat 32 (1024 * c.val)) (BitVec.ofNat 32 n.val)).toNat
      = if (v k).toNat = 1024 * c.val + n.val then 1 else 0 := fun k => hit_toNat (v k) c n
  have hle : ∀ k, (hit (v k) (BitVec.ofNat 32 (1024 * c.val)) (BitVec.ofNat 32 n.val)).toNat ≤ 1 := by
    intro k
    rw [h k]
    split <;> omega
  have h0 := hle 0; have h1 := hle 1; have h2 := hle 2; have h3 := hle 3; have h4 := hle 4
  have h5 := hle 5; have h6 := hle 6; have h7 := hle 7; have h8 := hle 8; have h9 := hle 9
  rw [Finset.card_filter, sum_univ_ten]
  simp only [← h]
  unfold cntWord
  simp only [BitVec.toNat_add, BitVec.toNat_ofNat]
  omega

/-- The count word read signed is the number of the ten words that name row `1024·c + n`. -/
theorem cntWord_toInt (v : Fin 10 → BitVec 32) (c : Fin 8) (n : Fin 1024) :
    (cntWord v (BitVec.ofNat 32 (1024 * c.val)) (BitVec.ofNat 32 n.val)).toInt
      = ((Finset.univ.filter fun k : Fin 10 => (v k).toNat = 1024 * c.val + n.val).card : ℤ) := by
  have hN := cntWord_toNat v c n
  have hle : (Finset.univ.filter fun k : Fin 10 => (v k).toNat = 1024 * c.val + n.val).card ≤ 10 := by
    calc _ ≤ (Finset.univ : Finset (Fin 10)).card := Finset.card_filter_le _ _
      _ = 10 := by simp
  rw [BitVec.toInt_eq_toNat_of_lt (by rw [hN]; omega), hN]

/-- A natural-number count, carried through the integers and the reals into the extended reals, multiplies an
    extended real as repeated addition. -/
theorem cast_mul_eq_nsmul (N : ℕ) (y : EReal) : ((((N : ℤ) : ℝ)) : EReal) * y = N • y := by
  rw [Int.cast_natCast, EReal.coe_natCast, EReal.nsmul_eq_mul]

/-- Regrouping inside one chunk, in any commutative monoid. Each row of the chunk is added as many times as there
    are indices naming it; summing by index instead, an index whose number lies in the chunk contributes its one row
    (the column is the number less the chunk's base), and an index whose number lies elsewhere contributes nothing. -/
theorem sum_card_nsmul_chunk {M : Type*} [AddCommMonoid M] (a : Fin 10 → ℕ) (c : Fin 8) (x : Fin 8192 → M) :
    ∑ n : Fin 1024, (Finset.univ.filter fun k : Fin 10 => a k = 1024 * c.val + n.val).card
        • x ⟨1024 * c.val + n.val, by have := c.isLt; have := n.isLt; omega⟩
      = ∑ k : Fin 10, if a k / 1024 = c.val then x ⟨a k % 8192, Nat.mod_lt _ (by decide)⟩ else 0 := by
  have hc := c.isLt
  simp only [Finset.card_filter, Finset.sum_smul]
  rw [Finset.sum_comm]
  refine Finset.sum_congr rfl fun k _ => ?_
  by_cases hk : a k / 1024 = c.val
  · rw [if_pos hk]
    have hlt : a k - 1024 * c.val < 1024 := by omega
    rw [Finset.sum_eq_single_of_mem (⟨a k - 1024 * c.val, hlt⟩ : Fin 1024) (Finset.mem_univ _)]
    · have he : a k = 1024 * c.val + (a k - 1024 * c.val) := by omega
      rw [if_pos he, one_smul]
      congr 1
      apply Fin.ext
      simp only
      omega
    · intro n _ hne
      have hn : ¬ a k = 1024 * c.val + n.val := by
        intro e
        apply hne
        apply Fin.ext
        simp only
        omega
      rw [if_neg hn, zero_smul]
  · rw [if_neg hk]
    apply Finset.sum_eq_zero
    intro n _
    have hn := n.isLt
    have hne : ¬ a k = 1024 * c.val + n.val := by
      intro e
      apply hk
      omega
    rw [if_neg hne, zero_smul]

/-- One chunk collects the rows named by the words that lie in it. -/
theorem chunkDot_eq (v : Fin 10 → BitVec 32) (x : Fin 8192 → EReal) (c : Fin 8) :
    chunkDot v x c
      = ∑ k : Fin 10, if (v k).toNat / 1024 = c.val then x ⟨(v k).toNat % 8192, Nat.mod_lt _ (by decide)⟩ else 0 := by
  unfold chunkDot
  simp only [cntWord_toInt, cast_mul_eq_nsmul]
  exact sum_card_nsmul_chunk (fun k => (v k).toNat) c x

/-- The eight chunks, accumulated from zero in order, collect every named row once. -/
theorem acc_chain (v : Fin 10 → BitVec 32) (hv : ∀ k, (v k).toNat < 8192) (x : Fin 8192 → EReal) :
    ((((((((0 : EReal) + chunkDot v x 0) + chunkDot v x 1) + chunkDot v x 2) + chunkDot v x 3) + chunkDot v x 4)
        + chunkDot v x 5) + chunkDot v x 6) + chunkDot v x 7
      = ∑ k : Fin 10, x ⟨(v k).toNat % 8192, Nat.mod_lt _ (by decide)⟩ := by
  rw [zero_add, ← Fin.sum_univ_eight (chunkDot v x)]
  simp only [chunkDot_eq]
  rw [Finset.sum_comm]
  refine Finset.sum_congr rfl fun k _ => ?_
  have hk := hv k
  rw [Finset.sum_eq_single_of_mem (⟨(v k).toNat / 1024, by omega⟩ : Fin 8) (Finset.mem_univ _)]
  · rw [if_pos rfl]
  · intro c _ hne
    rw [if_neg]
    intro e
    apply hne
    apply Fin.ext
    simp only
    omega

end Cert.LibOneHotCount

end
-- ==== Proof.LibMatmulAt.lean ====
/-
  A `tpu.matmul` into a zero accumulator, read at an output index, at the ideal instance: the plain sum of products
  over the one contracted axis, for the two rank-2 layouts a kernel uses.

  * `transposedRhs M K N` contracts the last axis of an M×K left operand with the last axis of an N×K right operand:
      out (p, q) = ∑ k, l (p, k) · r (q, k).
  * `plain M K N` contracts the last axis of an M×K left operand with the first axis of a K×N right operand:
      out (p, q) = ∑ k, l (p, k) · r (k, q).
  Both are stated for every M, K, N and every pair of operand formats, so one statement serves every tiling; a printed
  record with the same dimension numbers is one of these two by `rfl`.
-/
import Idealize.ShloMosaic.PureOps.Ideal.Laws
import Idealize.ShloMosaic.Lib.ValueIdx

noncomputable section

open scoped BigOperators

namespace Idealize.ShloMosaic.MatmulAt

open Idealize.ShloMosaic Idealize.ShloMosaic.ValueIdx

variable {M K N : Nat}

/-! ### Last axis with last axis -/

theorem tr_lhs_0 (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl

theorem tr_lhs_1 (j : (⟨2, ![M, N]⟩ : Shape).Idx) (q : (DotDims.transposedRhs M K N).contr.Idx) :
    ((DotDims.transposedRhs M K N).lhsIdx j q 1).val = (q ⟨0, Nat.one_pos⟩).val :=
  (DotDims.transposedRhs M K N).lhsIdx_val_of_single rfl j q

theorem tr_rhs_0 (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

theorem tr_rhs_1 (j : (⟨2, ![M, N]⟩ : Shape).Idx) (q : (DotDims.transposedRhs M K N).contr.Idx) :
    ((DotDims.transposedRhs M K N).rhsIdx j q 1).val = (q ⟨0, Nat.one_pos⟩).val :=
  (DotDims.transposedRhs M K N).rhsIdx_val_of_single rfl j q

/-- `out (p, q) = ∑ k, l (p, k) · r (q, k)`. -/
theorem matmul_transposedRhs_apply {φ₁ φ₂ : FTy} (prec : Option ContractPrecision)
    (l : FVec Ideal ⟨2, ![M, K]⟩ φ₁) (r : FVec Ideal ⟨2, ![N, K]⟩ φ₂) (p : Fin M) (q : Fin N) :
    FloatOps.matmul (DotDims.transposedRhs M K N) prec l r (constant ⟨2, ![M, N]⟩ .f32 0x00000000#32) (ix2 p q)
      = ∑ k : Fin K, l (ix2 p k) * r (ix2 q k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k) = ix2 p k :=
    funext fun a => Fin.ext (by
      match a with
      | ⟨0, _⟩ => exact tr_lhs_0 _ _
      | ⟨1, _⟩ => exact (tr_lhs_1 _ _).trans hk)
  have er : (DotDims.transposedRhs M K N).rhsIdx (ix2 p q) ((contrEquiv1 (DotDims.transposedRhs M K N) K rfl rfl).symm k) = ix2 q k :=
    funext fun a => Fin.ext (by
      match a with
      | ⟨0, _⟩ => exact tr_rhs_0 _ _
      | ⟨1, _⟩ => exact (tr_rhs_1 _ _).trans hk)
  rw [el, er]

/-! ### Last axis with first axis -/

theorem pl_lhs_0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

theorem pl_lhs_1 (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

theorem pl_rhs_0 (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

theorem pl_rhs_1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- `out (p, q) = ∑ k, l (p, k) · r (k, q)`. -/
theorem matmul_plain_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact pl_lhs_0 _ _
      | ⟨1, _⟩ => exact (pl_lhs_1 _ _).trans hk)
  have er : (DotDims.plain M K N).rhsIdx (ix2 p q) ((contrEquiv1 (DotDims.plain M K N) K rfl rfl).symm k) = ix2 k q :=
    funext fun a => Fin.ext (by
      match a with
      | ⟨0, _⟩ => exact (pl_rhs_0 _ _).trans hk
      | ⟨1, _⟩ => exact pl_rhs_1 _ _)
  rw [el, er]

end Idealize.ShloMosaic.MatmulAt

end
-- ==== Proof.LibRowOps.lean ====
/-
  Rank-2 ROW OPERATIONS read at an index, for any extents.

  A LayerNorm over the last axis of an [a, b] array is built from: the sum of each row, that sum kept as an [a, 1]
  column, the column spread back over the b columns, and a [1, b] row of per-column scales spread over the a rows.
  A kernel writes these with `vector.multi_reduction`, `vector.shape_cast` and `vector.broadcast`; jnp on the host with
  `stablehlo.reduce` and `stablehlo.broadcast_in_dim`. Each lemma says which element of the operand an element of the
  result is; the two sums are read as `∑ k : Fin b` over the row.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Idealize.ShloMosaic.RowOps

open Idealize.ShloMosaic Idealize.ShloMosaic.ValueIdx

variable {α : Type} {a b : Nat}

/-! ## The kernel's forms -/

/-- A vector [a] kept as a column [a, 1]: element (p, 0) is element p. -/
theorem shapeCast_col_apply (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- A column [a, 1] spread over b columns: element (p, c) is the column's element (p, 0). -/
theorem broadcastTo_col_apply (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index over row p with column k inserted is (p, k). -/
theorem lift_row (h : (⟨2, ![a, b]⟩ : Shape).Reduces [1] ⟨1, ![a]⟩) (p : Fin a) (k : Fin b) :
    h.lift (ix1 p) k = ix2 p k :=
  funext fun c => Fin.ext (by
    match c with
    | ⟨0, _⟩ => rfl
    | ⟨1, _⟩ => rfl)

/-- A kernel's sum over the last axis, at row p: the sum of the row. -/
theorem multiReduction_row_apply {φ : FTy} (x : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ x acc h hφ hacc (ix1 p) = ∑ k : Fin b, x (ix2 p k) := by
  rw [Ideal.multiReduction_add_single]
  exact Finset.sum_congr rfl fun k _ => congrArg x (lift_row h p k)

/-! ## The host's forms -/

/-- A vector [b] as a row [1, b] (`broadcast_in_dim`, dims = [1]): element (0, q) is element q. -/
theorem bcastInDim_row_apply (h : (⟨1, ![b]⟩ : Shape).BroadcastsInDim ⟨2, ![1, b]⟩ ![1]) (x : (⟨1, ![b]⟩ : Shape).Idx → α)
    (u : Fin 1) (q : Fin b) : broadcastInDim ⟨2, ![1, b]⟩ ![1] h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- A row [1, b] spread over a rows (dims = [0, 1]): element (r, q) is the row's element (0, q). -/
theorem bcastInDim_rows_apply (h : (⟨2, ![1, b]⟩ : Shape).BroadcastsInDim ⟨2, ![a, b]⟩ ![0, 1]) (x : (⟨2, ![1, b]⟩ : Shape).Idx → α)
    (r : Fin a) (q : Fin b) : broadcastInDim ⟨2, ![a, b]⟩ ![0, 1] h x (ix2 r q) = x (ix2 (0 : Fin 1) q) := by
  refine broadcastInDim_apply _ h x (ix2 r q) (ix2 (0 : Fin 1) q) fun ax => ?_
  match ax with
  | ⟨0, _⟩ => rfl
  | ⟨1, _⟩ =>
    show q.val = if b = 1 then 0 else q.val
    split
    · have := q.isLt; omega
    · rfl

/-- A vector [a] kept as a column [a, 1] (dims = [0]): element (r, 0) is element r. -/
theorem bcastInDim_col_apply (h : (⟨1, ![a]⟩ : Shape).BroadcastsInDim ⟨2, ![a, 1]⟩ ![0]) (x : (⟨1, ![a]⟩ : Shape).Idx → α)
    (r : Fin a) (u : Fin 1) : broadcastInDim ⟨2, ![a, 1]⟩ ![0] h x (ix2 r u) = x (ix1 r) := by
  refine broadcastInDim_apply _ h x (ix2 r u) (ix1 r) fun ax => ?_
  match ax with
  | ⟨0, _⟩ =>
    show r.val = if a = 1 then 0 else r.val
    split
    · have := r.isLt; omega
    · rfl

/-- A column [a, 1] spread over b columns (dims = [0, 1]): element (r, q) is the column's element (r, 0). -/
theorem bcastInDim_cols_apply (h : (⟨2, ![a, 1]⟩ : Shape).BroadcastsInDim ⟨2, ![a, b]⟩ ![0, 1]) (x : (⟨2, ![a, 1]⟩ : Shape).Idx → α)
    (r : Fin a) (q : Fin b) : broadcastInDim ⟨2, ![a, b]⟩ ![0, 1] h x (ix2 r q) = x (ix2 r (0 : Fin 1)) := by
  refine broadcastInDim_apply _ h x (ix2 r q) (ix2 r (0 : Fin 1)) fun ax => ?_
  match ax with
  | ⟨0, _⟩ =>
    show r.val = if a = 1 then 0 else r.val
    split
    · have := r.isLt; omega
    · rfl
  | ⟨1, _⟩ => rfl

/-- A scalar spread over any shape (dims = []): every element is the scalar. -/
theorem bcastInDim_scalar_apply {t : Shape} (h : (⟨0, ![]⟩ : Shape).BroadcastsInDim t ![]) (x : (⟨0, ![]⟩ : Shape).Idx → α)
    (j : t.Idx) : broadcastInDim t ![] h x j = x ix0 :=
  broadcastInDim_apply _ h x j ix0 fun ax => ax.elim0

/-- The host's sum over the last axis, at row r: the initial value plus the sum of the row. -/
theorem hostReduceAdd_row_apply {φ : FTy} (x : FVec Ideal ⟨2, ![a, b]⟩ φ) (init : FVec Ideal ⟨0, ![]⟩ φ)
    (h' : (⟨2, ![a, b]⟩ : Shape).ReducesTo [1] ⟨1, ![a]⟩) (hu : 0 < (⟨0, ![]⟩ : Shape).numel)
    (h : (⟨2, ![a, b]⟩ : Shape).Reduces [1] ⟨1, ![a]⟩) (r : Fin a) :
    Host.reduceAdd x init h' hu (ix1 r) = init ix0 + ∑ k : Fin b, x (ix2 r k) := by
  unfold Host.reduceAdd
  rw [Ideal.hostReduceAdd_def, Ideal.hostReduceAdd_single h' h, eq_ix0 (Shape.Idx.first hu)]
  exact congrArg (init ix0 + ·) (Finset.sum_congr rfl fun k _ => congrArg x (lift_row h r k))

end Idealize.ShloMosaic.RowOps

end
-- ==== Proof.KernelTile.lean ====
/-
  The kernel's tile at the ideal instance, index by index.

  Each of the eight accumulator steps is "previous + (matrix of counts) · (chunk of the table)". The matrix of counts
  is the same ten compare-widen-add steps in every chunk, with the chunk's base 1024·c taken off the ids first
  (`cntV`); read at (r, n) it is the count word of node r's ten ids at column n (`cntV_apply`). A step read at
  (r, j) is the previous value plus the chunk's rows weighted by the counts (`chunk_step`), so the eight steps from
  zero collect column j of the ten rows node r's ids name (`acc7_apply`: the counting law), and the stored tile is
  the two products with the halves of the map plus the bias (`tile_apply`).
-/
import proofs.«406600_j37787122270589_3_alg».proof.Proof.KernelBody
import proofs.«406600_j37787122270589_3_alg».proof.Proof.LibOneHotCount
import proofs.«406600_j37787122270589_3_alg».proof.Proof.LibMatmulAt
import proofs.«406600_j37787122270589_3_alg».proof.Proof.LibRowOps
import Idealize.ShloMosaic.Lib.ValueLayout
import Idealize.ShloMosaic.PureOps.Ideal.Laws
import Idealize.ShloMosaic.PureOps.IdealRules

set_option maxRecDepth 16384

noncomputable section

open scoped BigOperators

namespace Cert.KernelIdeal.Tile

open Cert.KernelIdeal Cert.KernelIdeal.Gen Idealize.ShloMosaic Idealize.ShloMosaic.ValueIdx
open Cert.LibOneHotCount

variable {F : FTy → Type} [FloatOps F] [Named F]

/-! ## The matrix of counts -/

/-- Column `o` of the id block kept as a column: its entry in row r is the id (r, o). -/
theorem col_apply (o : Nat) (ho : o < 10) (v : IVec S512x10 32) (hs : S512x10.Slices ![0, o] S512x1) (r : Fin 512) :
    extractStridedSlice S512x1 ![0, o] v hs (ix2 r (0 : Fin 1)) = v (ix2 r (⟨o, ho⟩ : Fin 10)) :=
  extractStridedSlice_apply _ v hs _ _ (fun a => by
    match a with
    | ⟨0, _⟩ => exact (Nat.zero_add _).symm
    | ⟨1, _⟩ => rfl)

/-- The column numbers read at column n. -/
theorem lane_apply (n : Fin 1024) : lane (ix2 (0 : Fin 1) n) = BitVec.ofNat 32 n.val :=
  iota_single_apply .tc S1x1024 32 1 iota_S1x1024_d1_w32 _

/-- One compare-widen step as the body prints it: id column `o` less the base, spread over the columns, compared
    with the column numbers spread over the rows, widened to 32 bits. -/
def stepV (o : Nat) (v : IVec S512x10 32) (B : BitVec 32) (hs : S512x10.Slices ![0, o] S512x1) : IVec S512x1024 32 :=
  extui 32 (cmpi .eq (broadcastTo S512x1024 (subi (extractStridedSlice S512x1 ![0, o] v hs) (broadcast S512x1 B)) broadcasts_S512x1_S512x1024)
    (broadcastTo S512x1024 lane broadcasts_S1x1024_S512x1024)) natLt_1_32

theorem stepV_apply (o : Nat) (ho : o < 10) (v : IVec S512x10 32) (B : BitVec 32) (hs : S512x10.Slices ![0, o] S512x1)
    (r : Fin 512) (n : Fin 1024) :
    stepV o v B hs (ix2 r n) = hit (v (ix2 r (⟨o, ho⟩ : Fin 10))) B (BitVec.ofNat 32 n.val) := by
  show (IntOp.cmpi .eq (broadcastTo S512x1024 (subi (extractStridedSlice S512x1 ![0, o] v hs) (broadcast S512x1 B)) broadcasts_S512x1_S512x1024 (ix2 r n))
    (broadcastTo S512x1024 lane broadcasts_S1x1024_S512x1024 (ix2 r n))).setWidth 32 = _
  rw [RowOps.broadcastTo_col_apply, broadcastTo_1b_ab_apply, lane_apply]
  show (IntOp.cmpi .eq (IntOp.subi (extractStridedSlice S512x1 ![0, o] v hs (ix2 r (0 : Fin 1))) B) _).setWidth 32 = _
  rw [col_apply o ho]
  rfl

/-- The ten steps added up from the zero matrix, in order. -/
def cntV (v : IVec S512x10 32) (B : BitVec 32) : IVec S512x1024 32 :=
  addi (addi (addi (addi (addi (addi (addi (addi (addi (addi (broadcast S512x1024 0#32)
    (stepV 0 v B slices_S512x10_o0_0_S512x1)) (stepV 1 v B slices_S512x10_o0_1_S512x1)) (stepV 2 v B slices_S512x10_o0_2_S512x1))
    (stepV 3 v B slices_S512x10_o0_3_S512x1)) (stepV 4 v B slices_S512x10_o0_4_S512x1)) (stepV 5 v B slices_S512x10_o0_5_S512x1))
    (stepV 6 v B slices_S512x10_o0_6_S512x1)) (stepV 7 v B slices_S512x10_o0_7_S512x1)) (stepV 8 v B slices_S512x10_o0_8_S512x1))
    (stepV 9 v B slices_S512x10_o0_9_S512x1)

/-- Read at (r, n), the matrix of counts is the count word of row r's ten ids at column n. -/
theorem cntV_apply (v : IVec S512x10 32) (B : BitVec 32) (r : Fin 512) (n : Fin 1024) :
    cntV v B (ix2 r n) = cntWord (fun k => v (ix2 r k)) B (BitVec.ofNat 32 n.val) := by
  show IntOp.addi (IntOp.addi (IntOp.addi (IntOp.addi (IntOp.addi (IntOp.addi (IntOp.addi (IntOp.addi (IntOp.addi (IntOp.addi 0#32
    (stepV 0 v B _ (ix2 r n))) (stepV 1 v B _ (ix2 r n))) (stepV 2 v B _ (ix2 r n))) (stepV 3 v B _ (ix2 r n))) (stepV 4 v B _ (ix2 r n)))
    (stepV 5 v B _ (ix2 r n))) (stepV 6 v B _ (ix2 r n))) (stepV 7 v B _ (ix2 r n))) (stepV 8 v B _ (ix2 r n))) (stepV 9 v B _ (ix2 r n)) = _
  rw [stepV_apply 0 (by decide), stepV_apply 1 (by decide), stepV_apply 2 (by decide), stepV_apply 3 (by decide), stepV_apply 4 (by decide),
    stepV_apply 5 (by decide), stepV_apply 6 (by decide), stepV_apply 7 (by decide), stepV_apply 8 (by decide), stepV_apply 9 (by decide)]
  rfl

/-! ## The accumulator steps are "previous + counts · chunk" -/

/-- A step's product: the counts as floats times the chunk, into a zero accumulator. -/
abbrev prod (v : IVec S512x10 32) (B : BitVec 32) (rows : Vec F S1024x1024 .bf16) : FVec F S512x1024 .f32 :=
  matmul dot_S512x1024_S1024x1024_S512x1024_1_0_0_1_n_n none (sitofp .bf16 (cntV v B))
    (shapeCast S1024x1024 rows shapeCasts_S1024x1024_S1024x1024) (constant S512x1024 .f32 0x00000000#32)

theorem acc0_eq (x0 : Vec F S512x10 .i32) (x1 : Vec F S8192x1024 .bf16) :
    acc0 x0 x1 = addf k0_pay2 (prod (ids x0) 0#32 (rows0 x1)) := rfl
theorem acc1_eq (x0 : Vec F S512x10 .i32) (x1 : Vec F S8192x1024 .bf16) :
    acc1 x0 x1 = addf (acc0 x0 x1) (prod (ids x0) 1024#32 (rows1 x1)) := rfl
theorem acc2_eq (x0 : Vec F S512x10 .i32) (x1 : Vec F S8192x1024 .bf16) :
    acc2 x0 x1 = addf (acc1 x0 x1) (prod (ids x0) 2048#32 (rows2 x1)) := rfl
theorem acc3_eq (x0 : Vec F S512x10 .i32) (x1 : Vec F S8192x1024 .bf16) :
    acc3 x0 x1 = addf (acc2 x0 x1) (prod (ids x0) 3072#32 (rows3 x1)) := rfl
theorem acc4_eq (x0 : Vec F S512x10 .i32) (x1 : Vec F S8192x1024 .bf16) :
    acc4 x0 x1 = addf (acc3 x0 x1) (prod (ids x0) 4096#32 (rows4 x1)) := rfl
theorem acc5_eq (x0 : Vec F S512x10 .i32) (x1 : Vec F S8192x1024 .bf16) :
    acc5 x0 x1 = addf (acc4 x0 x1) (prod (ids x0) 5120#32 (rows5 x1)) := rfl
theorem acc6_eq (x0 : Vec F S512x10 .i32) (x1 : Vec F S8192x1024 .bf16) :
    acc6 x0 x1 = addf (acc5 x0 x1) (prod (ids x0) 6144#32 (rows6 x1)) := rfl

/-- The accumulator after the eighth chunk. -/
def acc7 (x0 : Vec F S512x10 .i32) (x1 : Vec F S8192x1024 .bf16) : FVec F S512x1024 .f32 :=
  addf (acc6 x0 x1) (prod (ids x0) 7168#32 (rows7 x1))

/-- The stored tile: own rows times the first half of the map, plus the accumulator times the named tenth (kept in
    the narrower format) times the second half, plus the bias spread over the rows. -/
theorem tile_eq (i : grid0.Coords) (x0 : Vec F S512x10 .i32) (x1 : Vec F S8192x1024 .bf16) (x2 x3 : Vec F S1024x1024 .bf16)
    (x4 : Vec F S1024 .f32) :
    tile i x0 x1 x2 x3 x4
      = addf (addf
          (matmul dot_S512x1024_S1024x1024_S512x1024_1_0_0_1_n_n none (shapeCast S512x1024 (ownRows i x1) shapeCasts_S512x1024_S512x1024)
            (shapeCast S1024x1024 x2 shapeCasts_S1024x1024_S1024x1024) (constant S512x1024 .f32 0x00000000#32))
          (matmul dot_S512x1024_S1024x1024_S512x1024_1_0_0_1_n_n none
            (truncf .bf16 (mulf (acc7 x0 x1) (broadcast S512x1024 (Named.named κ "inv_10" 0x3DCCCCCD#32))) bitsLt_bf16_f32)
            (shapeCast S1024x1024 x3 shapeCasts_S1024x1024_S1024x1024) (constant S512x1024 .f32 0x00000000#32)))
        (broadcastTo S512x1024 (shapeCast S1x1024 x4 shapeCasts_S1024_S1x1024) broadcasts_S1x1024_S512x1024) := rfl

/-! ## Read at an index, at the ideal instance -/

/-- Row n of the chunk that starts at row B of the table is the table's row B + n. -/
theorem rows_apply (B : Nat) (hB : B + 1024 ≤ 8192) (inb : ∀ a, (![B, 0] : Fin 2 → Nat) a + S1024x1024.size a ≤ S8192x1024.size a)
    (x1 : Vec F S8192x1024 .bf16) (n j : Fin 1024) :
    View.ld x1 (Rect.unit ![B, 0] S1024x1024.size inb) (ix2 n j)
      = x1 (ix2 (⟨B + n.val, by have := n.isLt; omega⟩ : Fin 8192) j) := by
  show x1 _ = x1 _
  refine congrArg x1 (funext fun a => Fin.ext ?_)
  match a with
  | ⟨0, _⟩ => show B + 1 * n.val = B + n.val; omega
  | ⟨1, _⟩ => show 0 + 1 * j.val = j.val; omega

/-- One accumulator step at (r, j): the previous value plus the chunk's rows, column j, weighted by row r's counts. -/
theorem chunk_step (prev : FVec Ideal S512x1024 .f32) (v : IVec S512x10 32) (c : Fin 8) (rows : Vec Ideal S1024x1024 .bf16)
    (x1 : Vec Ideal S8192x1024 .bf16)
    (hrows : ∀ n j : Fin 1024, rows (ix2 n j) = x1 (ix2 (⟨1024 * c.val + n.val, by have := c.isLt; have := n.isLt; omega⟩ : Fin 8192) j))
    (r : Fin 512) (j : Fin 1024) :
    addf prev (prod v (BitVec.ofNat 32 (1024 * c.val)) rows) (ix2 r j)
      = prev (ix2 r j) + chunkDot (fun k => v (ix2 r k)) (fun q => x1 (ix2 q j)) c := by
  show prev (ix2 r j) + FloatOps.matmul (DotDims.plain 512 1024 1024) none (sitofp .bf16 (cntV v (BitVec.ofNat 32 (1024 * c.val))))
    (shapeCast S1024x1024 rows shapeCasts_S1024x1024_S1024x1024) (constant S512x1024 .f32 0x00000000#32) (ix2 r j) = _
  rw [shapeCast_self, MatmulAt.matmul_plain_apply]
  refine congrArg (prev (ix2 r j) + ·) (Finset.sum_congr rfl fun n _ => ?_)
  show (((cntV v (BitVec.ofNat 32 (1024 * c.val)) (ix2 r n)).toInt : ℝ) : EReal) * rows (ix2 n j) = _
  rw [cntV_apply, hrows]

/-- THE COUNTING LAW for a tile: if row r's ten ids are below 8192, the eight steps from zero leave at (r, j) the sum
    of column j over the ten rows the ids name. -/
theorem acc7_apply (x0 : Vec Ideal S512x10 .i32) (x1 : Vec Ideal S8192x1024 .bf16) (r : Fin 512) (j : Fin 1024)
    (hv : ∀ k : Fin 10, (x0 (ix2 r k)).toNat < 8192) :
    acc7 x0 x1 (ix2 r j) = ∑ k : Fin 10, x1 (ix2 (⟨(x0 (ix2 r k)).toNat % 8192, Nat.mod_lt _ (by decide)⟩ : Fin 8192) j) := by
  have hid : ids x0 = x0 := shapeCast_self _ _
  have e7 : acc7 x0 x1 (ix2 r j) = _ := chunk_step (acc6 x0 x1) (ids x0) 7 (rows7 x1) x1 (rows_apply 7168 (by decide) _ x1) r j
  have e6 : acc6 x0 x1 (ix2 r j) = _ := chunk_step (acc5 x0 x1) (ids x0) 6 (rows6 x1) x1 (rows_apply 6144 (by decide) _ x1) r j
  have e5 : acc5 x0 x1 (ix2 r j) = _ := chunk_step (acc4 x0 x1) (ids x0) 5 (rows5 x1) x1 (rows_apply 5120 (by decide) _ x1) r j
  have e4 : acc4 x0 x1 (ix2 r j) = _ := chunk_step (acc3 x0 x1) (ids x0) 4 (rows4 x1) x1 (rows_apply 4096 (by decide) _ x1) r j
  have e3 : acc3 x0 x1 (ix2 r j) = _ := chunk_step (acc2 x0 x1) (ids x0) 3 (rows3 x1) x1 (rows_apply 3072 (by decide) _ x1) r j
  have e2 : acc2 x0 x1 (ix2 r j) = _ := chunk_step (acc1 x0 x1) (ids x0) 2 (rows2 x1) x1 (rows_apply 2048 (by decide) _ x1) r j
  have e1 : acc1 x0 x1 (ix2 r j) = _ := chunk_step (acc0 x0 x1) (ids x0) 1 (rows1 x1) x1 (rows_apply 1024 (by decide) _ x1) r j
  have e0 : acc0 x0 x1 (ix2 r j) = _ := chunk_step k0_pay2 (ids x0) 0 (rows0 x1) x1 (rows_apply 0 (by decide) _ x1) r j
  have ez : (k0_pay2 (F := Ideal)) (ix2 r j) = 0 := Ideal.ofBits_zero_f32
  rw [e7, e6, e5, e4, e3, e2, e1, e0, ez, hid]
  exact acc_chain (fun k => x0 (ix2 r k)) hv (fun q => x1 (ix2 q j))

/-- A vector [b] kept as a one-row matrix [1, b]: element (0, q) is element q. -/
theorem shapeCast_row_apply {α : Type} {b : Nat} (x : (⟨1, ![b]⟩ : Shape).Idx → α) (h : (⟨1, ![b]⟩ : Shape).ShapeCasts ⟨2, ![1, b]⟩)
    (u : Fin 1) (q : Fin b) : shapeCast ⟨2, ![1, b]⟩ x h (ix2 u q) = x (ix1 q) :=
  shapeCast_apply x h _ _ (by
    have hu : u.val = 0 := by omega
    rw [Shape.rowMajor_val_two, Shape.rowMajor_val_one]
    show q.val = u.val * b + q.val
    rw [hu, Nat.zero_mul, Nat.zero_add])

/-- The named tenth is the rational 1/10 at the ideal instance. -/
theorem tenth : Named.named (F := Ideal) κ "inv_10" (φ := .f32) 0x3DCCCCCD#32 = ((1 / 10 : ℝ) : EReal) :=
  IdealRules.named_const.ideal_named_scalar _ _ _ _ rfl

/-- THE TILE at (r, o): own row r against column o of the first half of the map, the mean of the ten named rows
    against column o of the second half, and the bias. -/
theorem tile_apply (i : grid0.Coords) (x0 : Vec Ideal S512x10 .i32) (x1 : Vec Ideal S8192x1024 .bf16)
    (x2 x3 : Vec Ideal S1024x1024 .bf16) (x4 : Vec Ideal S1024 .f32) (r : Fin 512) (o : Fin 1024)
    (hv : ∀ k : Fin 10, (x0 (ix2 r k)).toNat < 8192) :
    tile i x0 x1 x2 x3 x4 (ix2 r o)
      = ((∑ j : Fin 1024, ownRows i x1 (ix2 r j) * x2 (ix2 j o))
          + (∑ j : Fin 1024, ((∑ k : Fin 10, x1 (ix2 (⟨(x0 (ix2 r k)).toNat % 8192, Nat.mod_lt _ (by decide)⟩ : Fin 8192) j))
              * ((1 / 10 : ℝ) : EReal)) * x3 (ix2 j o)))
        + x4 (ix1 o) := by
  rw [tile_eq]
  show (FloatOps.matmul (DotDims.plain 512 1024 1024) none (shapeCast S512x1024 (ownRows i x1) shapeCasts_S512x1024_S512x1024)
        (shapeCast S1024x1024 x2 shapeCasts_S1024x1024_S1024x1024) (constant S512x1024 .f32 0x00000000#32) (ix2 r o)
      + FloatOps.matmul (DotDims.plain 512 1024 1024) none
        (truncf .bf16 (mulf (acc7 x0 x1) (broadcast S512x1024 (Named.named κ "inv_10" 0x3DCCCCCD#32))) bitsLt_bf16_f32)
        (shapeCast S1024x1024 x3 shapeCasts_S1024x1024_S1024x1024) (constant S512x1024 .f32 0x00000000#32) (ix2 r o))
      + broadcastTo S512x1024 (shapeCast S1x1024 x4 shapeCasts_S1024_S1x1024) broadcasts_S1x1024_S512x1024 (ix2 r o) = _
  rw [shapeCast_self, shapeCast_self, shapeCast_self, MatmulAt.matmul_plain_apply, MatmulAt.matmul_plain_apply,
    broadcastTo_1b_ab_apply, shapeCast_row_apply]
  refine congrArg (· + x4 (ix1 o)) (congrArg (_ + ·) (Finset.sum_congr rfl fun j _ => ?_))
  show (acc7 x0 x1 (ix2 r j) * Named.named (F := Ideal) κ "inv_10" (φ := .f32) 0x3DCCCCCD#32) * x3 (ix2 j o) = _
  rw [acc7_apply x0 x1 r j hv, tenth]

end Cert.KernelIdeal.Tile

end
-- ==== Proof.KernelBlocks.lean ====
/-
  From tiles to the whole result array.

  Before the launch the program clips the neighbour ids into [0, 8191] (the identity on ids in range), changes the
  table's and the map's formats (the identity at the ideal instance) and cuts the map into its two halves of 1024
  rows. Grid point t reads rows 512·t … 512·t + 511 of the ids, the whole table, both halves of the map and the bias,
  and writes rows 512·t … 512·t + 511 of the result. Tile t of the result is therefore the specification restricted to
  those rows (`flushed_eq`); the sixteen tiles cover the 8192 rows, so the result array is the specification
  (`result_eq`).
-/
import proofs.«406600_j37787122270589_3_alg».proof.Proof.KernelTile
import proofs.«406600_j37787122270589_3_alg».proof.Proof.Gen.KernelIdeal.Value
import proofs.«406600_j37787122270589_3_alg».proof.Proof.Spec
import Idealize.ShloMosaic.Lib.StableHlo.Run
import Idealize.ShloMosaic.Lib.StableHlo.Predicate

set_option maxRecDepth 16384

noncomputable section

open scoped BigOperators

namespace Cert.KernelIdeal.Tile

open Cert.KernelIdeal Cert.KernelIdeal.Gen Idealize.ShloMosaic Idealize.ShloMosaic.TcCoe Idealize.SL.Sem
open Idealize.ShloMosaic.ValueIdx
open Idealize.ShloMosaic.Pipeline (Dat)
open Cert.NeighborMean

variable (m : (ℓ : Loc nD τ sig) → Buf (Elt Ideal) ℓ)

/-! ## The argument arrays, at their literal types -/

/-- The feature table. -/
abbrev featArg (c : Dev nD) : FVec Ideal S8192x1024 .f32 := m ((c : Thread nD τ).loc main_arg0)
/-- The affine map. -/
abbrev mapArg (c : Dev nD) : FVec Ideal S2048x1024 .f32 := m ((c : Thread nD τ).loc main_arg2)
/-- The neighbour ids. -/
abbrev idArg (c : Dev nD) : IVec S8192x10 32 := m ((c : Thread nD τ).loc main_arg4)

/-! ## The arrays the launch finds -/

/-- The clipped ids. -/
theorem ids_arr (c : Dev nD) : (V m c main_v0 : IVec S8192x10 32)
    = (minsi (broadcastInDim S8192x10 ![] bcast_S_S8192x10 (constantI S_ 32 8191#32))
        (maxsi (broadcastInDim S8192x10 ![] bcast_S_S8192x10 (constantI S_ 32 0#32)) (m ((c : Thread nD τ).loc main_arg4) : IVec S8192x10 32)) : IVec S8192x10 32) := by
  dsimp only [Gen.V]
  simp only [Gen.hostOps0, Gen.hostOps0_1, Gen.hostOps0_2, List.flatten_cons, List.flatten_nil, List.append_nil, List.cons_append,
    List.nil_append]
  after_results
  rfl

/-- The table in the kernel's format. -/
theorem feat_arr (c : Dev nD) : (V m c main_v1 : Vec Ideal S8192x1024 .bf16)
    = (truncf (F := Ideal) .bf16 (m ((c : Thread nD τ).loc main_arg0) : FVec Ideal S8192x1024 .f32) bitsLt_bf16_f32 : FVec Ideal S8192x1024 .bf16) := by
  dsimp only [Gen.V]
  simp only [Gen.hostOps0, Gen.hostOps0_1, Gen.hostOps0_2, List.flatten_cons, List.flatten_nil, List.append_nil, List.cons_append,
    List.nil_append]
  after_results

/-- The first half of the map in the kernel's format. -/
theorem map1_arr (c : Dev nD) : (V m c main_v3 : Vec Ideal S1024x1024 .bf16)
    = (truncf (F := Ideal) .bf16 (extractStridedSlice S1024x1024 ![0, 0] (m ((c : Thread nD τ).loc main_arg2) : FVec Ideal S2048x1024 .f32) slices_S2048x1024_S1024x1024_0_0) bitsLt_bf16_f32 : FVec Ideal S1024x1024 .bf16) := by
  dsimp only [Gen.V]
  simp only [Gen.hostOps0, Gen.hostOps0_1, Gen.hostOps0_2, List.flatten_cons, List.flatten_nil, List.append_nil, List.cons_append,
    List.nil_append]
  after_results

/-- The second half of the map in the kernel's format. -/
theorem map2_arr (c : Dev nD) : (V m c main_v5 : Vec Ideal S1024x1024 .bf16)
    = (truncf (F := Ideal) .bf16 (extractStridedSlice S1024x1024 ![1024, 0] (m ((c : Thread nD τ).loc main_arg2) : FVec Ideal S2048x1024 .f32) slices_S2048x1024_S1024x1024_1024_0) bitsLt_bf16_f32 : FVec Ideal S1024x1024 .bf16) := by
  dsimp only [Gen.V]
  simp only [Gen.hostOps0, Gen.hostOps0_1, Gen.hostOps0_2, List.flatten_cons, List.flatten_nil, List.append_nil, List.cons_append,
    List.nil_append]
  after_results

/-- Clipping into [0, 8191] leaves a word below 8192 as it is. -/
theorem clip_id (w : BitVec 32) (hw : w.toNat < 8192) : IntOp.minsi 8191#32 (IntOp.maxsi 0#32 w) = w := by
  have hlt : w.toNat < 2 ^ 31 := by omega
  have hi : w.toInt = w.toNat := StableHlo.Predicate.toInt_eq_toNat_of_lt hlt
  have h0 : (0#32 : BitVec 32).toInt = 0 := by decide
  have h1 : (8191#32 : BitVec 32).toInt = 8191 := by decide
  have hmax : IntOp.maxsi 0#32 w = w := by
    unfold IntOp.maxsi
    rw [if_neg]
    simp only [BitVec.slt, hi, h0, decide_eq_true_eq]
    omega
  rw [hmax]
  unfold IntOp.minsi
  rw [if_neg]
  simp only [BitVec.slt, hi, h1, decide_eq_true_eq]
  omega

/-! ## The index maps, decided over the sixteen points -/

theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0
    ∧ ((grid0.coords t) 0).val = t.val :=
  (by decide +kernel : ∀ t : Fin grid0.N, _)

theorem lt16 (t : Fin cfg0.N) : t.val < 16 := by
  have h := t.isLt
  have hN : cfg0.N = 16 := N_0
  omega

/-- The table row a tile's row r is: 512·t + r. -/
def rowOf (t : Fin cfg0.N) (r : Fin 512) : Fin 8192 := ⟨512 * t.val + r.val, by have := lt16 t; have := r.isLt; omega⟩

/-! ## The windows' blocks read at an index -/

theorem idblk_apply (c : Dev nD) (t : Fin cfg0.N) (r : Fin 512) (k : Fin 10) :
    (iblk m c 0 t : Vec Ideal S512x10 .i32) (ix2 r k) = (V m c main_v0 : IVec S8192x10 32) (ix2 (rowOf t r) k) := by
  obtain ⟨e0, e1, -⟩ := idx_facts t
  show V m c main_v0 (((cfg0.win 0).blk t).view.emb (ix2 r k)) = V m c main_v0 (ix2 (rowOf t r) k)
  refine congrArg (V m c main_v0) (funext fun a => Fin.ext ?_)
  match a with
  | ⟨0, _⟩ => show win0_0.index t (0 : Fin 2) * 512 + 1 * r.val = 512 * t.val + r.val; rw [e0]; omega
  | ⟨1, _⟩ => show win0_0.index t (1 : Fin 2) * 10 + 1 * k.val = k.val; rw [e1]; omega

theorem featblk_eq (c : Dev nD) (t : Fin cfg0.N) : (iblk m c 1 t : Vec Ideal S8192x1024 .bf16) = V m c main_v1 := by
  obtain ⟨-, -, e0, e1, -⟩ := idx_facts t
  funext y
  show V m c main_v1 (((cfg0.win 1).blk t).view.emb y) = V m c main_v1 y
  refine congrArg (V m c main_v1) (funext fun a => Fin.ext ?_)
  match a with
  | ⟨0, _⟩ => show win0_1.index t (0 : Fin 2) * 8192 + 1 * (y 0).val = (y 0).val; rw [e0]; omega
  | ⟨1, _⟩ => show win0_1.index t (1 : Fin 2) * 1024 + 1 * (y 1).val = (y 1).val; rw [e1]; omega

theorem map1blk_eq (c : Dev nD) (t : Fin cfg0.N) : (iblk m c 2 t : Vec Ideal S1024x1024 .bf16) = V m c main_v3 := by
  obtain ⟨-, -, -, -, e0, e1, -⟩ := idx_facts t
  funext y
  show V m c main_v3 (((cfg0.win 2).blk t).view.emb y) = V m c main_v3 y
  refine congrArg (V m c main_v3) (funext fun a => Fin.ext ?_)
  match a with
  | ⟨0, _⟩ => show win0_2.index t (0 : Fin 2) * 1024 + 1 * (y 0).val = (y 0).val; rw [e0]; omega
  | ⟨1, _⟩ => show win0_2.index t (1 : Fin 2) * 1024 + 1 * (y 1).val = (y 1).val; rw [e1]; omega

theorem map2blk_eq (c : Dev nD) (t : Fin cfg0.N) : (iblk m c 3 t : Vec Ideal S1024x1024 .bf16) = V m c main_v5 := by
  obtain ⟨-, -, -, -, -, -, e0, e1, -⟩ := idx_facts t
  funext y
  show V m c main_v5 (((cfg0.win 3).blk t).view.emb y) = V m c main_v5 y
  refine congrArg (V m c main_v5) (funext fun a => Fin.ext ?_)
  match a with
  | ⟨0, _⟩ => show win0_3.index t (0 : Fin 2) * 1024 + 1 * (y 0).val = (y 0).val; rw [e0]; omega
  | ⟨1, _⟩ => show win0_3.index t (1 : Fin 2) * 1024 + 1 * (y 1).val = (y 1).val; rw [e1]; omega

theorem biasblk_eq (c : Dev nD) (t : Fin cfg0.N) : (iblk m c 4 t : Vec Ideal S1024 .f32) = m ((c : Thread nD τ).loc main_arg3) := by
  obtain ⟨-, -, -, -, -, -, -, -, e0, -⟩ := idx_facts t
  rw [← V_main_arg3 m c]
  funext y
  show V m c main_arg3 (((cfg0.win 4).blk t).view.emb y) = V m c main_arg3 y
  refine congrArg (V m c main_arg3) (funext fun a => Fin.ext ?_)
  match a with
  | ⟨0, _⟩ => show win0_4.index t (0 : Fin 1) * 1024 + 1 * (y 0).val = (y 0).val; rw [e0]; omega

/-- The tile's own rows are the table's rows 512·t + r. -/
theorem ownRows_apply (t : Fin cfg0.N) (x1 : Vec Ideal S8192x1024 .bf16) (r : Fin 512) (j : Fin 1024) :
    ownRows (grid0.coords t) x1 (ix2 r j) = x1 (ix2 (rowOf t r) j) := by
  obtain ⟨-, -, -, -, -, -, -, -, -, -, -, eg⟩ := idx_facts t
  show x1 _ = x1 _
  refine congrArg x1 (funext fun a => Fin.ext ?_)
  have hoff := k0_off1_eq (grid0.coords t)
  match a with
  | ⟨0, _⟩ =>
    show k0_off1 (grid0.coords t) 0 + 1 * r.val = 512 * t.val + r.val
    rw [hoff]; show 512 * ((grid0.coords t) 0).val + 1 * r.val = _; rw [eg]; omega
  | ⟨1, _⟩ =>
    show k0_off1 (grid0.coords t) 1 + 1 * j.val = j.val
    rw [hoff]; show 0 + 1 * j.val = j.val; omega

/-! ## A tile is the specification on its rows -/

/-- WHAT POINT t WRITES BACK is the specification read through the window's block at t. -/
theorem flushed_eq (c : Dev nD) (t : Fin cfg0.N) (hin : InRange (m ((c : Thread nD τ).loc main_arg4))) :
    (dats m 0 c).flushed 5 t
      = ((cfg0.win 5).blk t).view.read (Elt Ideal) (out (m ((c : Thread nD τ).loc main_arg0)) (m ((c : Thread nD τ).loc main_arg2))
          (m ((c : Thread nD τ).loc main_arg3)) (m ((c : Thread nD τ).loc main_arg4))) := by
  rw [Value.flushed5_A, stored_eq_tile]
  obtain ⟨-, -, -, -, -, -, -, -, -, e50, e51, -⟩ := idx_facts t
  funext y
  obtain ⟨r, o, rfl⟩ : ∃ (r : Fin 512) (o : Fin 1024), y = ix2 r o := ⟨y 0, y 1, eq_ix2 y⟩
  have hemb : ((cfg0.win 5).blk t).view.emb (ix2 r o) = ix2 (rowOf t r) o := by
    funext a; apply Fin.ext
    match a with
    | ⟨0, _⟩ => show win0_5.index t (0 : Fin 2) * 512 + 1 * r.val = 512 * t.val + r.val; rw [e50]; omega
    | ⟨1, _⟩ => show win0_5.index t (1 : Fin 2) * 1024 + 1 * o.val = o.val; rw [e51]; omega
  show tile (grid0.coords t) (iblk m c 0 t) (iblk m c 1 t) (iblk m c 2 t) (iblk m c 3 t) (iblk m c 4 t) (ix2 r o)
    = out _ _ _ _ (((cfg0.win 5).blk t).view.emb (ix2 r o))
  rw [hemb, out_apply]
  -- the tile's ids are the clipped ids of rows 512·t + r, and clipping is the identity in range
  have hid : ∀ k : Fin 10, (iblk m c 0 t : Vec Ideal S512x10 .i32) (ix2 r k) = idArg m c (ix2 (rowOf t r) k) := by
    intro k
    rw [idblk_apply, ids_arr]
    exact clip_id _ (hin (rowOf t r) k)
  have hv : ∀ k : Fin 10, ((iblk m c 0 t : Vec Ideal S512x10 .i32) (ix2 r k)).toNat < 8192 := by
    intro k; rw [hid k]; exact hin (rowOf t r) k
  refine (tile_apply (grid0.coords t) (iblk m c 0 t) (iblk m c 1 t) (iblk m c 2 t) (iblk m c 3 t) (iblk m c 4 t) r o hv).trans ?_
  unfold outAt nbrSum
  rw [featblk_eq, map1blk_eq, map2blk_eq, biasblk_eq, feat_arr, map1_arr, map2_arr]
  refine congrArg₂ (· + ·) (congrArg₂ (· + ·) (Finset.sum_congr rfl fun j _ => ?_) (Finset.sum_congr rfl fun j _ => ?_)) rfl
  · rw [ownRows_apply]
    show featArg m c (ix2 (rowOf t r) j)
      * extractStridedSlice S1024x1024 ![0, 0] (mapArg m c) slices_S2048x1024_S1024x1024_0_0 (ix2 j o) = _
    rw [extractStridedSlice_apply _ _ _ (ix2 j o) (ix2 (ownRow j) o) (fun a => by
      match a with
      | ⟨0, _⟩ => exact (Nat.zero_add _).symm
      | ⟨1, _⟩ => exact (Nat.zero_add _).symm)]
  · show ((∑ k : Fin 10, featArg m c (ix2 (⟨((iblk m c 0 t : Vec Ideal S512x10 .i32) (ix2 r k)).toNat % 8192, Nat.mod_lt _ (by decide)⟩ : Fin 8192) j))
        * ((1 / 10 : ℝ) : EReal))
      * extractStridedSlice S1024x1024 ![1024, 0] (mapArg m c) slices_S2048x1024_S1024x1024_1024_0 (ix2 j o) = _
    rw [extractStridedSlice_apply _ _ _ (ix2 j o) (ix2 (aggRow j) o) (fun a => by
      match a with
      | ⟨0, _⟩ => rfl
      | ⟨1, _⟩ => exact (Nat.zero_add _).symm)]
    refine congrArg (· * _) (congrArg (· * _) (Finset.sum_congr rfl fun k _ => ?_))
    refine congrArg (fun p => featArg m c (ix2 p j)) (Fin.ext ?_)
    show ((iblk m c 0 t : Vec Ideal S512x10 .i32) (ix2 r k)).toNat % 8192 = (idArg m c (ix2 (rowOf t r) k)).toNat % 8192
    rw [hid k]

/-! ## The sixteen tiles cover the array -/

/-- An index of the result is in point t's block iff its row is one of the block's 512. -/
theorem mem_blk (t : Fin cfg0.N) (i : S8192x1024.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_v6).slice (win0_5.rect t)).set ↔ _
  rw [View.set_slice_whole, Rect.mem_set_unit]
  exact Iff.rfl

/-- THE RESULT ARRAY after the run is the specification, for neighbour ids in range. -/
theorem result_eq (c : Dev nD) (hin : InRange (m ((c : Thread nD τ).loc main_arg4))) :
    (dats m 0 c).arrAt 5 cfg0.N
      = out (m ((c : Thread nD τ).loc main_arg0)) (m ((c : Thread nD τ).loc main_arg2))
          (m ((c : Thread nD τ).loc main_arg3)) (m ((c : Thread nD τ).loc main_arg4)) :=
  (dats m 0 c).arrAt_eq_of_cover 5 _ (fun t _ => flushed_eq m c t hin) fun i => by
    have hi0 : (i 0).val < 8192 := (i 0).isLt
    have hi1 : (i 1).val < 1024 := (i 1).isLt
    have hN : cfg0.N = 16 := N_0
    let t : Fin cfg0.N := ⟨(i 0).val / 512, by omega⟩
    obtain ⟨-, -, -, -, -, -, -, -, -, e50, e51, -⟩ := idx_facts t
    refine ⟨t, flush0_5 t, ?_⟩
    rw [mem_blk]
    intro a
    match a with
    | ⟨0, _⟩ =>
      show win0_5.index t (0 : Fin 2) * 512 ≤ (i 0).val ∧ (i 0).val < win0_5.index t (0 : Fin 2) * 512 + 512
      rw [e50]; show (i 0).val / 512 * 512 ≤ (i 0).val ∧ (i 0).val < (i 0).val / 512 * 512 + 512; omega
    | ⟨1, _⟩ =>
      show win0_5.index t (1 : Fin 2) * 1024 ≤ (i 1).val ∧ (i 1).val < win0_5.index t (1 : Fin 2) * 1024 + 1024
      rw [e51]; omega

end Cert.KernelIdeal.Tile

end
-- ==== Proof.lean ====
/-
  A neighbour-mean graph layer, kernel against reference, over the extended reals.

  Both programs compute, for node i and output column o,

      out[i, o] = ∑ j, X[i, j] · W[j, o]  +  ∑ j, (∑ k, X[idx[i, k], j]) · (1/10) · W[1024 + j, o]  +  b[o]

  (Proof/Spec.lean), for neighbour ids idx[i, k] in [0, 8192), which the precondition states (Proof/PreRange.lean reads
  it). The reference gathers the ten neighbour rows, sums them, divides by ten, sets the node's own row in front and
  makes one product with the whole map (Proof/RefValue.lean). The kernel never gathers: per tile of 512 nodes and per
  chunk of 1024 table rows it builds the matrix that COUNTS how many of a node's ids name each row, and multiplies it
  with the chunk; the eight products added up are the sum of the ten named rows, because each id lies in exactly one
  chunk and a count times a row is the row added that many times (Proof/LibOneHotCount.lean, Proof/KernelTile.lean). It
  multiplies by the named tenth where the reference divides by ten, and makes two products with the halves of the map
  where the reference makes one with the whole (a sum over 2048 split at 1024). Sixteen tiles cover the 8192 nodes
  (Proof/KernelBlocks.lean). No step needs the table's entries finite: only regrouping of sums, a count as repeated
  addition, and division by ten as multiplication by a tenth, all valid on every extended real.
-/
import proofs.«406600_j37787122270589_3_alg».proof.Defs
import proofs.«406600_j37787122270589_3_alg».proof.Proof.Gen.Kernel
import proofs.«406600_j37787122270589_3_alg».proof.Proof.Gen.Kernel.Skeleton
import proofs.«406600_j37787122270589_3_alg».proof.Proof.Gen.Kernel.Launch
import proofs.«406600_j37787122270589_3_alg».proof.Proof.Gen.Kernel.Points
import proofs.«406600_j37787122270589_3_alg».proof.Proof.Gen.Kernel.Frame
import proofs.«406600_j37787122270589_3_alg».proof.Proof.Gen.KernelIdeal
import proofs.«406600_j37787122270589_3_alg».proof.Proof.Gen.KernelIdeal.Skeleton
import proofs.«406600_j37787122270589_3_alg».proof.Proof.Gen.KernelIdeal.Launch
import proofs.«406600_j37787122270589_3_alg».proof.Proof.Gen.KernelIdeal.Points
import proofs.«406600_j37787122270589_3_alg».proof.Proof.Gen.KernelIdeal.Frame
import proofs.«406600_j37787122270589_3_alg».proof.Proof.Gen.ReferenceIdeal
import proofs.«406600_j37787122270589_3_alg».proof.Proof.Gen.KernelIdeal.Value
import proofs.«406600_j37787122270589_3_alg».proof.Proof.Gen.ReferenceIdeal.Run
import proofs.«406600_j37787122270589_3_alg».proof.Proof.Gen.ReferenceIdeal.Read
import proofs.«406600_j37787122270589_3_alg».proof.Proof.Gen.Pre_finite_inputs
import proofs.«406600_j37787122270589_3_alg».proof.Proof.Spec
import proofs.«406600_j37787122270589_3_alg».proof.Proof.PreRange
import proofs.«406600_j37787122270589_3_alg».proof.Proof.RefValue
import proofs.«406600_j37787122270589_3_alg».proof.Proof.KernelBlocks
import Idealize.ShloMosaic.Adequacy
import Idealize.ShloMosaic.Init

noncomputable section

namespace Cert.Proof

open Idealize.ShloMosaic Idealize.SL.Sem Cert.Kernel

/-- The kernel as printed runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is host operations only: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The one rewrite of the idealization: the kernel's literal 0.1 is read as the rational 1/10. -/
theorem preserves : Cert.preserves_Kernel_KernelIdeal :=
  IdealRules.named_const.statement Cert.KernelIdeal.κ "inv_10" .f32 0x3DCCCCCD#32 ((1 / 10 : ℝ) : EReal) rfl

/-- From memories that agree on the arguments, both programs end with the specification's array: the kernel's sixteen
    tiles, and the reference's last stage, each for the neighbour ids in range that the precondition gives. -/
theorem algebraic : Cert.algebraic_KernelIdeal_ReferenceIdeal := by
  intro m ρ m' ρ' hpre hagree
  have hin : ∀ c : Dev Cert.KernelIdeal.nD, Cert.NeighborMean.InRange (m ((c.tc : Thread Cert.KernelIdeal.nD Cert.KernelIdeal.τ).loc Cert.KernelIdeal.main_arg4)) :=
    fun c => Cert.NeighborMean.inRange_of_pre _ _ _ _ _ (hpre c)
  refine ⟨fun c => Cert.NeighborMean.out (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun r h c => ⟨(h c).1.trans (Cert.KernelIdeal.Tile.result_eq m c (hin c)), (h c).2⟩)
      (Cert.KernelIdeal.Value.run_blocks (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v14_eq, (hagree c).1, (hagree c).2.2.1, (hagree c).2.2.2.1, (hagree c).2.2.2.2]
    exact Cert.NeighborMean.reference_is_out _ _ _ _ (hin c)

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
